-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x32 : Shape := ⟨2, ![2, 32]⟩
abbrev S32 : Shape := ⟨1, ![32]⟩
abbrev S32x3 : Shape := ⟨2, ![32, 3]⟩
abbrev S3 : Shape := ⟨1, ![3]⟩
abbrev S384x3 : Shape := ⟨2, ![384, 3]⟩
abbrev S384x128 : Shape := ⟨2, ![384, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S384x3 : S_.BroadcastsInDim S384x3 (![] : Fin 0 → Fin S384x3.rank)
  reducesTo_S384x3_S_d0_1 : S384x3.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S384x3 .f32) (main_arg10 : FVec F S3 .f32) (main_arg11 : FVec F S384x128 .f32) (main_arg12 : FVec F S128 .f32) (main_v33 : IVec S_ 1) : IVec S_ 1 :=
  let main_v34 : FVec F S384x3 .f32 := Host.absf main_arg9
  let main_cst_12 : FVec F S_ .f32 := constant S_ .f32 0x7F800000#32
  let main_v35 : FVec F S384x3 .f32 := broadcastInDim S384x3 ![] bcast_S_S384x3 main_cst_12
  let main_v36 : IVec S384x3 1 := cmpf .olt main_v34 main_v35
  let main_c_13 : IVec S_ 1 := constantI S_ 1 1#1
  let main_v37 : IVec S_ 1 := (fun x v => Host.reduce IntOp.andi x v reducesTo_S384x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S32 .f32) (main_arg7 : FVec F S32x3 .f32) (main_arg8 : FVec F S3 .f32) (main_arg9 : FVec F S384x3 .f32) (main_arg10 : FVec F S3 .f32) (main_arg11 : FVec F S384x128 .f32) (main_arg12 : FVec F S128 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x3 .f32 := Host.absf main_arg7
  let main_cst_8 : FVec F S_ .f32 := constant S_ .f32 0x7F800000#32
  let main_v25 : FVec F S32x3 .f32 := broadcastInDim S32x3 ![] bcast_S_S32x3 main_cst_8
  let main_v26 : IVec S32x3 1 := cmpf .olt main_v24 main_v25
  let main_c_9 : IVec S_ 1 := constantI S_ 1 1#1
  let main_v27 : IVec S_ 1 := (fun x v => Host.reduce IntOp.andi x v reducesTo_S32x3_S_d0_1 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S2x32 .f32) (main_arg6 : FVec F S32 .f32) (main_arg7 : FVec F S32x3 .f32) (main_arg8 : FVec F S3 .f32) (main_arg9 : FVec F S384x3 .f32) (main_arg10 : FVec F S3 .f32) (main_arg11 : FVec F S384x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S2x32 .f32 := Host.absf main_arg5
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x32 : Shape := ⟨2, ![2, 32]⟩
abbrev S32 : Shape := ⟨1, ![32]⟩
abbrev S32x3 : Shape := ⟨2, ![32, 3]⟩
abbrev S3 : Shape := ⟨1, ![3]⟩
abbrev S384x3 : Shape := ⟨2, ![384, 3]⟩
abbrev S384x128 : Shape := ⟨2, ![384, 128]⟩
abbrev S128 : Shape := ⟨1, ![128]⟩
abbrev S_ : Shape := ⟨0, ![]⟩
abbrev S1 : Shape := ⟨1, ![1]⟩
abbrev S2 : Shape := ⟨1, ![2]⟩
abbrev S1x2 : Shape := ⟨2, ![1, 2]⟩
abbrev S1x32 : Shape := ⟨2, ![1, 32]⟩
abbrev S1x3 : Shape := ⟨2, ![1, 3]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S2000x384 : Shape := ⟨2, ![2000, 384]⟩
abbrev S2000x3 : Shape := ⟨2, ![2000, 3]⟩
abbrev S2000 : Shape := ⟨1, ![2000]⟩
abbrev S2000x1 : Shape := ⟨2, ![2000, 1]⟩

abbrev nBuf : Space → Nat
  | .hbm => 93
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S3x128x128, .f32⟩
  | .hbm, ⟨4, _⟩ => ⟨S3x128, .f32⟩
  | .hbm, ⟨5, _⟩ => ⟨S2x32, .f32⟩
  | .hbm, ⟨6, _⟩ => ⟨S32, .f32⟩
  | .hbm, ⟨7, _⟩ => ⟨S32x3, .f32⟩
  | .hbm, ⟨8, _⟩ => ⟨S3, .f32⟩
  | .hbm, ⟨9, _⟩ => ⟨S384x3, .f32⟩
  | .hbm, ⟨10, _⟩ => ⟨S3, .f32⟩
  | .hbm, ⟨11, _⟩ => ⟨S384x128, .f32⟩
  | .hbm, ⟨12, _⟩ => ⟨S128, .f32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S1x2, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S_, .f32⟩
  | .hbm, ⟨27, _⟩ => ⟨S1x32, .f32⟩
  | .hbm, ⟨28, _⟩ => ⟨S1x32, .f32⟩
  | .hbm, ⟨29, _⟩ => ⟨S1x3, .f32⟩
  | .hbm, ⟨30, _⟩ => ⟨S1x3, .f32⟩
  | .hbm, ⟨31, _⟩ => ⟨S1x3, .f32⟩
  | .hbm, ⟨32, _⟩ => ⟨S1x3, .f32⟩
  | .hbm, ⟨33, _⟩ => ⟨S1x3, .f32⟩
  | .hbm, ⟨34, _⟩ => ⟨S_, .f32⟩
  | .hbm, ⟨35, _⟩ => ⟨S1x3, .f32⟩
  | .hbm, ⟨36, _⟩ => ⟨S1x3, .f32⟩
  | .hbm, ⟨37, _⟩ => ⟨S_, .f32⟩
  | .hbm, ⟨38, _⟩ => ⟨S1x3, .f32⟩
  | .hbm, ⟨39, _⟩ => ⟨S1x3, .f32⟩
  | .hbm, ⟨40, _⟩ => ⟨S1x800000, .i32⟩
  | .hbm, ⟨41, _⟩ => ⟨S800000, .i32⟩
  | .hbm, ⟨42, _⟩ => ⟨S1x800000, .i32⟩
  | .hbm, ⟨43, _⟩ => ⟨S800000, .i32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S_, .f32⟩
  | .hbm, ⟨58, _⟩ => ⟨S800000x1, .f32⟩
  | .hbm, ⟨59, _⟩ => ⟨S_, .f32⟩
  | .hbm, ⟨60, _⟩ => ⟨S50000x1, .f32⟩
  | .hbm, ⟨61, _⟩ => ⟨S800000x1, .i32⟩
  | .hbm, ⟨62, _⟩ => ⟨S50000x1, .f32⟩
  | .hbm, ⟨63, _⟩ => ⟨S_, .f32⟩
  | .hbm, ⟨64, _⟩ => ⟨S50000x1, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S_, .f32⟩
  | .hbm, ⟨82, _⟩ => ⟨S800000x1, .f32⟩
  | .hbm, ⟨83, _⟩ => ⟨S_, .f32⟩
  | .hbm, ⟨84, _⟩ => ⟨S50000x1, .f32⟩
  | .hbm, ⟨85, _⟩ => ⟨S800000x1, .i32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S3x128x128, .f32⟩
  | .local _ .vmem, ⟨7, _⟩ => ⟨S3x128, .f32⟩
  | .local _ .vmem, ⟨8, _⟩ => ⟨S1x3, .f32⟩
  | .local _ .vmem, ⟨9, _⟩ => ⟨S384x3, .f32⟩
  | .local _ .vmem, ⟨10, _⟩ => ⟨S3, .f32⟩
  | .local _ .vmem, ⟨11, _⟩ => ⟨S384x128, .f32⟩
  | .local _ .vmem, ⟨12, _⟩ => ⟨S128, .f32⟩
  | .local _ .vmem, ⟨13, _⟩ => ⟨S2000x128, .f32⟩
  | .local _ .vmem, ⟨14, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_14 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  reducesTo_S50000_S_d0 : S50000.ReducesTo [0] S_
  h_S_ : 0 < S_.numel
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  bcast_S32_S1x32_1 : S32.BroadcastsInDim S1x32 (![1] : Fin 1 → Fin S1x32.rank)
  bcast_S_S1x32 : S_.BroadcastsInDim S1x32 (![] : Fin 0 → Fin S1x32.rank)
  bcast_S3_S1x3_1 : S3.BroadcastsInDim S1x3 (![1] : Fin 1 → Fin S1x3.rank)
  bcast_S_S1x3 : S_.BroadcastsInDim S1x3 (![] : Fin 0 → Fin S1x3.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x3_S1x3_0_0 : ∀ a, (![0, 0] : Fin 2 → Nat) a + S1x3.size a ≤ S1x3.size a
  h_S1x3 : 0 < S1x3.numel
  shapeCasts_S1x3_S1x3 : S1x3.ShapeCasts S1x3
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S2000x128 : S1x128.Broadcasts S2000x128
  slices_S1x3_o0_0_S1x1 : S1x3.Slices ![0, 0] S1x1
  inpos_S1x1_p0_0 : ∀ a, (![0, 0] : Fin 2 → Nat) a < S1x1.size a
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  slices_S1x3_o0_1_S1x1 : S1x3.Slices ![0, 1] S1x1
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  slices_S1x3_o0_2_S1x1 : S1x3.Slices ![0, 2] S1x1
  concatenates_S2000x128_S2000x128_S2000x128_S2000x384_d1 : Shape.Concatenates [S2000x128, S2000x128, S2000x128] S2000x384 1
  inb_S384x3_S384x3_0_0 : ∀ a, (![0, 0] : Fin 2 → Nat) a + S384x3.size a ≤ S384x3.size a
  h_S384x3 : 0 < S384x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  reduces_S2000x3_S2000 : S2000x3.Reduces [1] S2000
  shapeCasts_S2000_S2000x1 : S2000.ShapeCasts S2000x1
  broadcasts_S2000x1_S2000x3 : S2000x1.Broadcasts S2000x3
  slices_S2000x3_o0_0_S2000x1 : S2000x3.Slices ![0, 0] S2000x1
  broadcasts_S2000x1_S2000x128 : S2000x1.Broadcasts S2000x128
  slices_S2000x3_o0_1_S2000x1 : S2000x3.Slices ![0, 1] S2000x1
  slices_S2000x3_o0_2_S2000x1 : S2000x3.Slices ![0, 2] S2000x1
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  dot_S1x2_S2x32_S1x32_1_0_0_1_n_n_wf : DotDims.WF S1x2 S2x32 S1x32 [1] [0] [0] [1] [] []
  dot_S1x32_S32x3_S1x3_1_0_0_1_n_n_wf : DotDims.WF S1x32 S32x3 S1x3 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S2000x128_S128x128_S2000x128_1_0_0_1_n_n_wf : DotDims.WF S2000x128 S128x128 S2000x128 [1] [0] [0] [1] [] []
  dot_S2000x384_S384x3_S2000x3_1_0_0_1_n_n_wf : DotDims.WF S2000x384 S384x3 S2000x3 [1] [0] [0] [1] [] []
  dot_S2000x384_S384x128_S2000x128_1_0_0_1_n_n_wf : DotDims.WF S2000x384 S384x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3.size a ≤ S1x3.size a
  hwx0_5 : ∀ i : grid0.Coords, EltTy.bits .f32 = 32 ∨ (Rect.block (s := S1x3) S1x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x3.size a ≤ S384x3.size a
  hwx0_6 : ∀ i : grid0.Coords, EltTy.bits .f32 = 32 ∨ (Rect.block (s := S384x3) S384x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3.size a ≤ S3.size a
  hwx0_7 : ∀ i : grid0.Coords, EltTy.bits .f32 = 32 ∨ (Rect.block (s := S3) S3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x128.size a ≤ S384x128.size a
  hwx0_8 : ∀ i : grid0.Coords, EltTy.bits .f32 = 32 ∨ (Rect.block (s := S384x128) S384x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .f32 = 32 ∨ (Rect.block (s := S50000x128) S2000x128.size (cc0_transform_10 i) (hinb0_10 i)).WholeWords (EltTy.packing .f32)

variable [Facts₀]

def dot_S1x2_S2x32_S1x32_1_0_0_1_n_n : DotDims S1x2 S2x32 S1x32 where
  lhsContracting := [1]
  rhsContracting := [0]
  lhsNonContracting := [0]
  rhsNonContracting := [1]
  lhsBatch := []
  rhsBatch := []
  wf := dot_S1x2_S2x32_S1x32_1_0_0_1_n_n_wf
def dot_S1x32_S32x3_S1x3_1_0_0_1_n_n : DotDims S1x32 S32x3 S1x3 where
  lhsContracting := [1]
  rhsContracting := [0]
  lhsNonContracting := [0]
  rhsNonContracting := [1]
  lhsBatch := []
  rhsBatch := []
  wf := dot_S1x32_S32x3_S1x3_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x384_S384x3_S2000x3_1_0_0_1_n_n : DotDims S2000x384 S384x3 S2000x3 where
  lhsContracting := [1]
  rhsContracting := [0]
  lhsNonContracting := [0]
  rhsNonContracting := [1]
  lhsBatch := []
  rhsBatch := []
  wf := dot_S2000x384_S384x3_S2000x3_1_0_0_1_n_n_wf
def dot_S2000x384_S384x128_S2000x128_1_0_0_1_n_n : DotDims S2000x384 S384x128 S2000x128 where
  lhsContracting := [1]
  rhsContracting := [0]
  lhsNonContracting := [0]
  rhsNonContracting := [1]
  lhsBatch := []
  rhsBatch := []
  wf := dot_S2000x384_S384x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S384x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S384x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v60) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S2x32 : Shape := ⟨2, ![2, 32]⟩
abbrev S32 : Shape := ⟨1, ![32]⟩
abbrev S32x3 : Shape := ⟨2, ![32, 3]⟩
abbrev S3 : Shape := ⟨1, ![3]⟩
abbrev S384x3 : Shape := ⟨2, ![384, 3]⟩
abbrev S384x128 : Shape := ⟨2, ![384, 128]⟩
abbrev S128 : Shape := ⟨1, ![128]⟩
abbrev S_ : Shape := ⟨0, ![]⟩
abbrev S1 : Shape := ⟨1, ![1]⟩
abbrev S2 : Shape := ⟨1, ![2]⟩
abbrev S1x2 : Shape := ⟨2, ![1, 2]⟩
abbrev S1x32 : Shape := ⟨2, ![1, 32]⟩
abbrev S1x3 : Shape := ⟨2, ![1, 3]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S1x1 : Shape := ⟨2, ![1, 1]⟩
abbrev S800000x1 : Shape := ⟨2, ![800000, 1]⟩
abbrev S800000x128 : Shape := ⟨2, ![800000, 128]⟩
abbrev S50000x1 : Shape := ⟨2, ![50000, 1]⟩
abbrev S50000x384 : Shape := ⟨2, ![50000, 384]⟩
abbrev S50000x3 : Shape := ⟨2, ![50000, 3]⟩

abbrev nBuf : Space → Nat
  | .hbm => 161
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S2x32, .f32⟩
  | 6 => ⟨S32, .f32⟩
  | 7 => ⟨S32x3, .f32⟩
  | 8 => ⟨S3, .f32⟩
  | 9 => ⟨S384x3, .f32⟩
  | 10 => ⟨S3, .f32⟩
  | 11 => ⟨S384x128, .f32⟩
  | 12 => ⟨S128, .f32⟩
  | 13 => ⟨S_, .i32⟩
  | 14 => ⟨S_, .i32⟩
  | 15 => ⟨S_, .f32⟩
  | 16 => ⟨S_, .f32⟩
  | 17 => ⟨S_, .f32⟩
  | 18 => ⟨S_, .f32⟩
  | 19 => ⟨S1, .f32⟩
  | 20 => ⟨S1, .f32⟩
  | 21 => ⟨S2, .f32⟩
  | 22 => ⟨S1x2, .f32⟩
  | 23 => ⟨S1x32, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S1x3, .f32⟩
  | 30 => ⟨S1x3, .f32⟩
  | 31 => ⟨S1x3, .f32⟩
  | 32 => ⟨S1x3, .f32⟩
  | 33 => ⟨S1x3, .f32⟩
  | 34 => ⟨S_, .f32⟩
  | 35 => ⟨S1x3, .f32⟩
  | 36 => ⟨S1x3, .f32⟩
  | 37 => ⟨S_, .f32⟩
  | 38 => ⟨S1x3, .f32⟩
  | 39 => ⟨S1x3, .f32⟩
  | 40 => ⟨S1x800000, .i32⟩
  | 41 => ⟨S800000, .i32⟩
  | 42 => ⟨S1x800000, .i32⟩
  | 43 => ⟨S800000, .i32⟩
  | 44 => ⟨S1x128x128, .f32⟩
  | 45 => ⟨S128x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x1, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S800000x1, .f32⟩
  | 71 => ⟨S_, .f32⟩
  | 72 => ⟨S50000x1, .f32⟩
  | 73 => ⟨S800000x1, .i32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S1x1, .f32⟩
  | 89 => ⟨S_, .f32⟩
  | 90 => ⟨S50000x128, .f32⟩
  | 91 => ⟨S50000x128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S800000x1, .f32⟩
  | 107 => ⟨S_, .f32⟩
  | 108 => ⟨S50000x1, .f32⟩
  | 109 => ⟨S800000x1, .i32⟩
  | 110 => ⟨S50000x1, .f32⟩
  | 111 => ⟨S_, .f32⟩
  | 112 => ⟨S50000x1, .f32⟩
  | 113 => ⟨S50000x1, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x1, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S50000x384, .f32⟩
  | 1 => ⟨S50000x3, .f32⟩
  | 2 => ⟨S1x3, .f32⟩
  | 3 => ⟨S50000x3, .f32⟩
  | 4 => ⟨S50000x3, .f32⟩
  | 5 => ⟨S_, .f32⟩
  | 6 => ⟨S50000, .f32⟩
  | 7 => ⟨S_, .f32⟩
  | 8 => ⟨S50000, .f32⟩
  | 9 => ⟨S50000, .f32⟩
  | 10 => ⟨S50000x1, .f32⟩
  | 11 => ⟨S50000x3, .f32⟩
  | 12 => ⟨S50000x3, .f32⟩
  | 13 => ⟨S50000x3, .f32⟩
  | 14 => ⟨S_, .f32⟩
  | 15 => ⟨S50000, .f32⟩
  | 16 => ⟨S50000x1, .f32⟩
  | 17 => ⟨S50000x3, .f32⟩
  | 18 => ⟨S50000x3, .f32⟩
  | 19 => ⟨S50000x1, .f32⟩
  | 20 => ⟨S50000x128, .f32⟩
  | 21 => ⟨S50000x128, .f32⟩
  | 22 => ⟨S50000x1, .f32⟩
  | 23 => ⟨S50000x128, .f32⟩
  | 24 => ⟨S50000x128, .f32⟩
  | 25 => ⟨S50000x1, .f32⟩
  | 26 => ⟨S50000x128, .f32⟩
  | 27 => ⟨S50000x128, .f32⟩
  | 28 => ⟨S50000x384, .f32⟩
  | 29 => ⟨S50000x128, .f32⟩
  | 30 => ⟨S1x128, .f32⟩
  | 31 => ⟨S50000x128, .f32⟩
  | 32 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call0_cst : Ref sig .tc := ⟨.hbm, 26, rfl⟩
abbrev main_call0_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_9 : Ref sig .tc := ⟨.hbm, 92, rfl⟩
abbrev main_v66 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_15 : Ref sig .tc := ⟨.hbm, 133, rfl⟩
abbrev main_v101 : Ref sig .tc := ⟨.hbm, 134, rfl⟩
abbrev main_cst_16 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_17 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]

class Facts₀ : Prop where
  reducesTo_S50000_S_d0 : S50000.ReducesTo [0] S_
  h_S_ : 0 < S_.numel
  bcast_S_S1 : S_.BroadcastsInDim S1 (![] : Fin 0 → Fin S1.rank)
  concatenates_S1_S1_S2_d0 : Shape.Concatenates [S1, S1] S2 0
  bcast_S2_S1x2_1 : S2.BroadcastsInDim S1x2 (![1] : Fin 1 → Fin S1x2.rank)
  bcast_S32_S1x32_1 : S32.BroadcastsInDim S1x32 (![1] : Fin 1 → Fin S1x32.rank)
  bcast_S_S1x32 : S_.BroadcastsInDim S1x32 (![] : Fin 0 → Fin S1x32.rank)
  bcast_S3_S1x3_1 : S3.BroadcastsInDim S1x3 (![1] : Fin 1 → Fin S1x3.rank)
  bcast_S_S1x3 : S_.BroadcastsInDim S1x3 (![] : Fin 0 → Fin S1x3.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S1x3_S1x1_0_0 : S1x3.Slices ![0, 0] S1x1
  shapeCasts_S1x1_S_ : S1x1.ShapeCasts S_
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S1x3_S1x1_0_1 : S1x3.Slices ![0, 1] S1x1
  slices_S3x128x128_S1x128x128_2_0_0 : S3x128x128.Slices ![2, 0, 0] S1x128x128
  slices_S3x128_S1x128_2_0 : S3x128.Slices ![2, 0] S1x128
  slices_S1x3_S1x1_0_2 : S1x3.Slices ![0, 2] S1x1
  concatenates_S50000x128_S50000x128_S50000x128_S50000x384_d1 : Shape.Concatenates [S50000x128, S50000x128, S50000x128] S50000x384 1
  bcast_S1x3_S50000x3_0_1 : S1x3.BroadcastsInDim S50000x3 (![0, 1] : Fin 2 → Fin S50000x3.rank)
  reducesTo_S50000x3_S50000_d1 : S50000x3.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  slices_S50000x3_S50000x1_0_0 : S50000x3.Slices ![0, 0] S50000x1
  slices_S50000x3_S50000x1_0_1 : S50000x3.Slices ![0, 1] S50000x1
  slices_S50000x3_S50000x1_0_2 : S50000x3.Slices ![0, 2] S50000x1
  dot_S1x2_S2x32_S1x32_1_0_0_1_n_n_wf : DotDims.WF S1x2 S2x32 S1x32 [1] [0] [0] [1] [] []
  dot_S1x32_S32x3_S1x3_1_0_0_1_n_n_wf : DotDims.WF S1x32 S32x3 S1x3 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x384_S384x3_S50000x3_1_0_0_1_n_n_wf : DotDims.WF S50000x384 S384x3 S50000x3 [1] [0] [0] [1] [] []
  dot_S50000x384_S384x128_S50000x128_1_0_0_1_n_n_wf : DotDims.WF S50000x384 S384x128 S50000x128 [1] [0] [0] [1] [] []

variable [Facts₀]

def dot_S1x2_S2x32_S1x32_1_0_0_1_n_n : DotDims S1x2 S2x32 S1x32 where
  lhsContracting := [1]
  rhsContracting := [0]
  lhsNonContracting := [0]
  rhsNonContracting := [1]
  lhsBatch := []
  rhsBatch := []
  wf := dot_S1x2_S2x32_S1x32_1_0_0_1_n_n_wf
def dot_S1x32_S32x3_S1x3_1_0_0_1_n_n : DotDims S1x32 S32x3 S1x3 where
  lhsContracting := [1]
  rhsContracting := [0]
  lhsNonContracting := [0]
  rhsNonContracting := [1]
  lhsBatch := []
  rhsBatch := []
  wf := dot_S1x32_S32x3_S1x3_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x384_S384x3_S50000x3_1_0_0_1_n_n : DotDims S50000x384 S384x3 S50000x3 where
  lhsContracting := [1]
  rhsContracting := [0]
  lhsNonContracting := [0]
  rhsNonContracting := [1]
  lhsBatch := []
  rhsBatch := []
  wf := dot_S50000x384_S384x3_S50000x3_1_0_0_1_n_n_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.RefStages.lean ====
/-
  The reference's run, stage by stage.

  The run ends with every buffer at the fold of the 148 operations' results over the launch contents. The fold is
  read here piece by piece — the list is cut before each concatenation, so that a piece's concatenation finds its
  operands as they stand when the piece begins — and each piece's live results are the stage functions of the
  arguments. The last piece's result is the program's result.
-/
import proofs.«161347_j88278757802661_1_alg».proof.Proof.RefRead

noncomputable section

namespace Cert.ReferenceIdeal.Stages

open Cert.ReferenceIdeal Cert.ReferenceIdeal.Gen Cert.ReferenceIdeal.RunFold Cert.ReferenceIdeal.ReadP
open Idealize.ShloMosaic Idealize.ShloMosaic.TcCoe Idealize.SL.Sem Idealize.ShloMosaic.StableHlo

variable {F : FTy → Type} [FloatOps F]

/-! ## The first piece: up to the two gate features -/

theorem A_v3 (V : Valuation τ sig (Elt F)) : after (opsA (F := F)) V (Proc.devRef .tc main_v3) = val_main_v3 (F := F) := by
  after_results_simp <;> rfl
theorem A_v4 (V : Valuation τ sig (Elt F)) : after (opsA (F := F)) V (Proc.devRef .tc main_v4) = val_main_v4 (F := F) (V (Proc.devRef .tc main_arg2)) := by
  after_results_simp <;> rfl
theorem A_arg0 (V : Valuation τ sig (Elt F)) : after (opsA (F := F)) V (Proc.devRef .tc main_arg0) = V (Proc.devRef .tc main_arg0) := by after_results_simp <;> rfl
theorem A_arg1 (V : Valuation τ sig (Elt F)) : after (opsA (F := F)) V (Proc.devRef .tc main_arg1) = V (Proc.devRef .tc main_arg1) := by after_results_simp <;> rfl
theorem A_arg3 (V : Valuation τ sig (Elt F)) : after (opsA (F := F)) V (Proc.devRef .tc main_arg3) = V (Proc.devRef .tc main_arg3) := by after_results_simp <;> rfl
theorem A_arg4 (V : Valuation τ sig (Elt F)) : after (opsA (F := F)) V (Proc.devRef .tc main_arg4) = V (Proc.devRef .tc main_arg4) := by after_results_simp <;> rfl
theorem A_arg5 (V : Valuation τ sig (Elt F)) : after (opsA (F := F)) V (Proc.devRef .tc main_arg5) = V (Proc.devRef .tc main_arg5) := by after_results_simp <;> rfl
theorem A_arg6 (V : Valuation τ sig (Elt F)) : after (opsA (F := F)) V (Proc.devRef .tc main_arg6) = V (Proc.devRef .tc main_arg6) := by after_results_simp <;> rfl
theorem A_arg7 (V : Valuation τ sig (Elt F)) : after (opsA (F := F)) V (Proc.devRef .tc main_arg7) = V (Proc.devRef .tc main_arg7) := by after_results_simp <;> rfl
theorem A_arg8 (V : Valuation τ sig (Elt F)) : after (opsA (F := F)) V (Proc.devRef .tc main_arg8) = V (Proc.devRef .tc main_arg8) := by after_results_simp <;> rfl
theorem A_arg9 (V : Valuation τ sig (Elt F)) : after (opsA (F := F)) V (Proc.devRef .tc main_arg9) = V (Proc.devRef .tc main_arg9) := by after_results_simp <;> rfl
theorem A_arg10 (V : Valuation τ sig (Elt F)) : after (opsA (F := F)) V (Proc.devRef .tc main_arg10) = V (Proc.devRef .tc main_arg10) := by after_results_simp <;> rfl
theorem A_arg11 (V : Valuation τ sig (Elt F)) : after (opsA (F := F)) V (Proc.devRef .tc main_arg11) = V (Proc.devRef .tc main_arg11) := by after_results_simp <;> rfl
theorem A_arg12 (V : Valuation τ sig (Elt F)) : after (opsA (F := F)) V (Proc.devRef .tc main_arg12) = V (Proc.devRef .tc main_arg12) := by after_results_simp <;> rfl

/-! ## The second piece: the gate, the two neighbour means and the three hops -/

/-- What the second piece starts from: the gate features at their stages, the arguments as launched. -/
structure AtB (x0 : (⟨S50000x128, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S2x32, .f32⟩ : BufTy).Contents (Elt F)) (x6 : (⟨S32, .f32⟩ : BufTy).Contents (Elt F)) (x7 : (⟨S32x3, .f32⟩ : BufTy).Contents (Elt F)) (x8 : (⟨S3, .f32⟩ : BufTy).Contents (Elt F)) (x9 : (⟨S384x3, .f32⟩ : BufTy).Contents (Elt F)) (x10 : (⟨S3, .f32⟩ : BufTy).Contents (Elt F)) (x11 : (⟨S384x128, .f32⟩ : BufTy).Contents (Elt F)) (x12 : (⟨S128, .f32⟩ : BufTy).Contents (Elt F)) (W : Valuation τ sig (Elt F)) : Prop where
  h3 : W (Proc.devRef .tc main_v3) = val_main_v3 (F := F)
  h4 : W (Proc.devRef .tc main_v4) = val_main_v4 (F := F) x2
  a0 : W (Proc.devRef .tc main_arg0) = x0
  a1 : W (Proc.devRef .tc main_arg1) = x1
  a3 : W (Proc.devRef .tc main_arg3) = x3
  a4 : W (Proc.devRef .tc main_arg4) = x4
  a5 : W (Proc.devRef .tc main_arg5) = x5
  a6 : W (Proc.devRef .tc main_arg6) = x6
  a7 : W (Proc.devRef .tc main_arg7) = x7
  a8 : W (Proc.devRef .tc main_arg8) = x8
  a9 : W (Proc.devRef .tc main_arg9) = x9
  a10 : W (Proc.devRef .tc main_arg10) = x10
  a11 : W (Proc.devRef .tc main_arg11) = x11
  a12 : W (Proc.devRef .tc main_arg12) = x12

variable (x0 : (⟨S50000x128, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S2x32, .f32⟩ : BufTy).Contents (Elt F)) (x6 : (⟨S32, .f32⟩ : BufTy).Contents (Elt F)) (x7 : (⟨S32x3, .f32⟩ : BufTy).Contents (Elt F)) (x8 : (⟨S3, .f32⟩ : BufTy).Contents (Elt F)) (x9 : (⟨S384x3, .f32⟩ : BufTy).Contents (Elt F)) (x10 : (⟨S3, .f32⟩ : BufTy).Contents (Elt F)) (x11 : (⟨S384x128, .f32⟩ : BufTy).Contents (Elt F)) (x12 : (⟨S128, .f32⟩ : BufTy).Contents (Elt F))

set_option maxRecDepth 16384 in
set_option maxHeartbeats 40000000 in
theorem B_v35 (W : Valuation τ sig (Elt F)) (h : AtB x0 x1 x2 x3 x4 x5 x6 x7 x8 x9 x10 x11 x12 W) :
    after (opsB (F := F)) W (Proc.devRef .tc main_v35) = val_main_v35 (F := F) x0 x2 x3 x4 x5 x6 x7 x8 := by
  after_results_simp
  simp only [TRef.ofBuf, TRef.toBuf, cast_eq]
  rw [h.h3, h.h4, h.a0, h.a3, h.a4, h.a5, h.a6, h.a7, h.a8]
  rfl

set_option maxRecDepth 16384 in
set_option maxHeartbeats 40000000 in
theorem B_v65 (W : Valuation τ sig (Elt F)) (h : AtB x0 x1 x2 x3 x4 x5 x6 x7 x8 x9 x10 x11 x12 W) :
    after (opsB (F := F)) W (Proc.devRef .tc main_v65) = val_main_v65 (F := F) x0 x1 x2 x3 x4 x5 x6 x7 x8 := by
  after_results_simp
  simp only [TRef.ofBuf, TRef.toBuf, cast_eq]
  rw [h.h3, h.h4, h.a0, h.a1, h.a3, h.a4, h.a5, h.a6, h.a7, h.a8]
  rfl

set_option maxRecDepth 16384 in
set_option maxHeartbeats 40000000 in
theorem B_v95 (W : Valuation τ sig (Elt F)) (h : AtB x0 x1 x2 x3 x4 x5 x6 x7 x8 x9 x10 x11 x12 W) :
    after (opsB (F := F)) W (Proc.devRef .tc main_v95) = val_main_v95 (F := F) x0 x1 x2 x3 x4 x5 x6 x7 x8 := by
  after_results_simp
  simp only [TRef.ofBuf, TRef.toBuf, cast_eq]
  rw [h.h3, h.h4, h.a0, h.a1, h.a3, h.a4, h.a5, h.a6, h.a7, h.a8]
  rfl

set_option maxHeartbeats 40000000 in
theorem B_arg9 (W : Valuation τ sig (Elt F)) : after (opsB (F := F)) W (Proc.devRef .tc main_arg9) = W (Proc.devRef .tc main_arg9) := by after_results_simp <;> rfl
set_option maxHeartbeats 40000000 in
theorem B_arg10 (W : Valuation τ sig (Elt F)) : after (opsB (F := F)) W (Proc.devRef .tc main_arg10) = W (Proc.devRef .tc main_arg10) := by after_results_simp <;> rfl
set_option maxHeartbeats 40000000 in
theorem B_arg11 (W : Valuation τ sig (Elt F)) : after (opsB (F := F)) W (Proc.devRef .tc main_arg11) = W (Proc.devRef .tc main_arg11) := by after_results_simp <;> rfl
set_option maxHeartbeats 40000000 in
theorem B_arg12 (W : Valuation τ sig (Elt F)) : after (opsB (F := F)) W (Proc.devRef .tc main_arg12) = W (Proc.devRef .tc main_arg12) := by after_results_simp <;> rfl

/-! ## The third piece: the logits, the softmax and the weighted hop features -/

/-- What the third piece starts from. -/
structure AtQ (x0 : (⟨S50000x128, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S2x32, .f32⟩ : BufTy).Contents (Elt F)) (x6 : (⟨S32, .f32⟩ : BufTy).Contents (Elt F)) (x7 : (⟨S32x3, .f32⟩ : BufTy).Contents (Elt F)) (x8 : (⟨S3, .f32⟩ : BufTy).Contents (Elt F)) (x9 : (⟨S384x3, .f32⟩ : BufTy).Contents (Elt F)) (x10 : (⟨S3, .f32⟩ : BufTy).Contents (Elt F)) (x11 : (⟨S384x128, .f32⟩ : BufTy).Contents (Elt F)) (x12 : (⟨S128, .f32⟩ : BufTy).Contents (Elt F)) (W : Valuation τ sig (Elt F)) : Prop where
  h35 : W (Proc.devRef .tc main_v35) = val_main_v35 (F := F) x0 x2 x3 x4 x5 x6 x7 x8
  h65 : W (Proc.devRef .tc main_v65) = val_main_v65 (F := F) x0 x1 x2 x3 x4 x5 x6 x7 x8
  h95 : W (Proc.devRef .tc main_v95) = val_main_v95 (F := F) x0 x1 x2 x3 x4 x5 x6 x7 x8
  a9 : W (Proc.devRef .tc main_arg9) = x9
  a10 : W (Proc.devRef .tc main_arg10) = x10
  a11 : W (Proc.devRef .tc main_arg11) = x11
  a12 : W (Proc.devRef .tc main_arg12) = x12

set_option maxRecDepth 16384 in
set_option maxHeartbeats 40000000 in
theorem Q_v114 (W : Valuation τ sig (Elt F)) (h : AtQ x0 x1 x2 x3 x4 x5 x6 x7 x8 x9 x10 x11 x12 W) :
    after (opsQ (F := F)) W (Proc.devRef .tc main_v114) = val_main_v114 (F := F) x0 x1 x2 x3 x4 x5 x6 x7 x8 x9 x10 := by
  have e0 : W (Proc.devRef .tc (![main_v35, main_v65, main_v95] 0)) = val_main_v35 (F := F) x0 x2 x3 x4 x5 x6 x7 x8 := h.h35
  have e1 : W (Proc.devRef .tc (![main_v35, main_v65, main_v95] 1)) = val_main_v65 (F := F) x0 x1 x2 x3 x4 x5 x6 x7 x8 := h.h65
  have e2 : W (Proc.devRef .tc (![main_v35, main_v65, main_v95] 2)) = val_main_v95 (F := F) x0 x1 x2 x3 x4 x5 x6 x7 x8 := h.h95
  after_results_simp
  rw [e0, e1, e2, h.h35, h.a9, h.a10]
  rfl

set_option maxRecDepth 16384 in
set_option maxHeartbeats 40000000 in
theorem Q_v117 (W : Valuation τ sig (Elt F)) (h : AtQ x0 x1 x2 x3 x4 x5 x6 x7 x8 x9 x10 x11 x12 W) :
    after (opsQ (F := F)) W (Proc.devRef .tc main_v117) = val_main_v117 (F := F) x0 x1 x2 x3 x4 x5 x6 x7 x8 x9 x10 := by
  have e0 : W (Proc.devRef .tc (![main_v35, main_v65, main_v95] 0)) = val_main_v35 (F := F) x0 x2 x3 x4 x5 x6 x7 x8 := h.h35
  have e1 : W (Proc.devRef .tc (![main_v35, main_v65, main_v95] 1)) = val_main_v65 (F := F) x0 x1 x2 x3 x4 x5 x6 x7 x8 := h.h65
  have e2 : W (Proc.devRef .tc (![main_v35, main_v65, main_v95] 2)) = val_main_v95 (F := F) x0 x1 x2 x3 x4 x5 x6 x7 x8 := h.h95
  after_results_simp
  rw [e0, e1, e2, h.h65, h.a9, h.a10]
  rfl

set_option maxRecDepth 16384 in
set_option maxHeartbeats 40000000 in
theorem Q_v120 (W : Valuation τ sig (Elt F)) (h : AtQ x0 x1 x2 x3 x4 x5 x6 x7 x8 x9 x10 x11 x12 W) :
    after (opsQ (F := F)) W (Proc.devRef .tc main_v120) = val_main_v120 (F := F) x0 x1 x2 x3 x4 x5 x6 x7 x8 x9 x10 := by
  have e0 : W (Proc.devRef .tc (![main_v35, main_v65, main_v95] 0)) = val_main_v35 (F := F) x0 x2 x3 x4 x5 x6 x7 x8 := h.h35
  have e1 : W (Proc.devRef .tc (![main_v35, main_v65, main_v95] 1)) = val_main_v65 (F := F) x0 x1 x2 x3 x4 x5 x6 x7 x8 := h.h65
  have e2 : W (Proc.devRef .tc (![main_v35, main_v65, main_v95] 2)) = val_main_v95 (F := F) x0 x1 x2 x3 x4 x5 x6 x7 x8 := h.h95
  after_results_simp
  rw [e0, e1, e2, h.h95, h.a9, h.a10]
  rfl

theorem Q_arg11 (W : Valuation τ sig (Elt F)) : after (opsQ (F := F)) W (Proc.devRef .tc main_arg11) = W (Proc.devRef .tc main_arg11) := by after_results_simp <;> rfl
theorem Q_arg12 (W : Valuation τ sig (Elt F)) : after (opsQ (F := F)) W (Proc.devRef .tc main_arg12) = W (Proc.devRef .tc main_arg12) := by after_results_simp <;> rfl

/-! ## The last piece: the fusion -/

/-- What the last piece starts from. -/
structure AtR (x0 : (⟨S50000x128, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S2x32, .f32⟩ : BufTy).Contents (Elt F)) (x6 : (⟨S32, .f32⟩ : BufTy).Contents (Elt F)) (x7 : (⟨S32x3, .f32⟩ : BufTy).Contents (Elt F)) (x8 : (⟨S3, .f32⟩ : BufTy).Contents (Elt F)) (x9 : (⟨S384x3, .f32⟩ : BufTy).Contents (Elt F)) (x10 : (⟨S3, .f32⟩ : BufTy).Contents (Elt F)) (x11 : (⟨S384x128, .f32⟩ : BufTy).Contents (Elt F)) (x12 : (⟨S128, .f32⟩ : BufTy).Contents (Elt F)) (W : Valuation τ sig (Elt F)) : Prop where
  h114 : W (Proc.devRef .tc main_v114) = val_main_v114 (F := F) x0 x1 x2 x3 x4 x5 x6 x7 x8 x9 x10
  h117 : W (Proc.devRef .tc main_v117) = val_main_v117 (F := F) x0 x1 x2 x3 x4 x5 x6 x7 x8 x9 x10
  h120 : W (Proc.devRef .tc main_v120) = val_main_v120 (F := F) x0 x1 x2 x3 x4 x5 x6 x7 x8 x9 x10
  a11 : W (Proc.devRef .tc main_arg11) = x11
  a12 : W (Proc.devRef .tc main_arg12) = x12

set_option maxRecDepth 16384 in
theorem R_v125 (W : Valuation τ sig (Elt F)) (h : AtR x0 x1 x2 x3 x4 x5 x6 x7 x8 x9 x10 x11 x12 W) :
    after (opsR (F := F)) W (Proc.devRef .tc main_v125) = val_main_v125 (F := F) x0 x1 x2 x3 x4 x5 x6 x7 x8 x9 x10 x11 x12 := by
  have e0 : W (Proc.devRef .tc (![main_v114, main_v117, main_v120] 0)) = val_main_v114 (F := F) x0 x1 x2 x3 x4 x5 x6 x7 x8 x9 x10 := h.h114
  have e1 : W (Proc.devRef .tc (![main_v114, main_v117, main_v120] 1)) = val_main_v117 (F := F) x0 x1 x2 x3 x4 x5 x6 x7 x8 x9 x10 := h.h117
  have e2 : W (Proc.devRef .tc (![main_v114, main_v117, main_v120] 2)) = val_main_v120 (F := F) x0 x1 x2 x3 x4 x5 x6 x7 x8 x9 x10 := h.h120
  after_results_simp
  rw [e0, e1, e2, h.a11, h.a12]
  rfl

/-! ## The pieces in order -/

/-- THE RESULT BUFFER after all 148 operations, from any contents: the last stage at the argument buffers' contents. -/
theorem fold_result (V : Valuation τ sig (Elt F)) :
    after (ops (F := F)) V (Proc.devRef .tc main_v125)
      = val_main_v125 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_cut, StableHlo.after_append, StableHlo.after_append, StableHlo.after_append]
  have hB : AtB (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (after (opsA (F := F)) V) :=
    ⟨A_v3 V, A_v4 V, A_arg0 V, A_arg1 V, A_arg3 V, A_arg4 V, A_arg5 V, A_arg6 V, A_arg7 V, A_arg8 V, A_arg9 V, A_arg10 V, A_arg11 V, A_arg12 V⟩
  have hQ : AtQ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (after (opsB (F := F)) (after (opsA (F := F)) V)) :=
    ⟨B_v35 _ _ _ _ _ _ _ _ _ _ _ _ _ _ hB, B_v65 _ _ _ _ _ _ _ _ _ _ _ _ _ _ hB, B_v95 _ _ _ _ _ _ _ _ _ _ _ _ _ _ hB,
      (B_arg9 _).trans hB.a9, (B_arg10 _).trans hB.a10, (B_arg11 _).trans hB.a11, (B_arg12 _).trans hB.a12⟩
  have hR : AtR (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (after (opsQ (F := F)) (after (opsB (F := F)) (after (opsA (F := F)) V))) :=
    ⟨Q_v114 _ _ _ _ _ _ _ _ _ _ _ _ _ _ hQ, Q_v117 _ _ _ _ _ _ _ _ _ _ _ _ _ _ hQ, Q_v120 _ _ _ _ _ _ _ _ _ _ _ _ _ _ hQ,
      (Q_arg11 _).trans hQ.a11, (Q_arg12 _).trans hQ.a12⟩
  exact R_v125 _ _ _ _ _ _ _ _ _ _ _ _ _ _ hR

/-! ## The run -/

set_option maxHeartbeats 40000000 in
/-- No operation writes an argument buffer. -/
theorem fold_args (V : Valuation τ sig (Elt F)) :
    after (ops (F := F)) V (Proc.devRef .tc main_arg0) = V (Proc.devRef .tc main_arg0) ∧
    after (ops (F := F)) V (Proc.devRef .tc main_arg1) = V (Proc.devRef .tc main_arg1) ∧
    after (ops (F := F)) V (Proc.devRef .tc main_arg2) = V (Proc.devRef .tc main_arg2) ∧
    after (ops (F := F)) V (Proc.devRef .tc main_arg3) = V (Proc.devRef .tc main_arg3) ∧
    after (ops (F := F)) V (Proc.devRef .tc main_arg4) = V (Proc.devRef .tc main_arg4) ∧
    after (ops (F := F)) V (Proc.devRef .tc main_arg5) = V (Proc.devRef .tc main_arg5) ∧
    after (ops (F := F)) V (Proc.devRef .tc main_arg6) = V (Proc.devRef .tc main_arg6) ∧
    after (ops (F := F)) V (Proc.devRef .tc main_arg7) = V (Proc.devRef .tc main_arg7) ∧
    after (ops (F := F)) V (Proc.devRef .tc main_arg8) = V (Proc.devRef .tc main_arg8) ∧
    after (ops (F := F)) V (Proc.devRef .tc main_arg9) = V (Proc.devRef .tc main_arg9) ∧
    after (ops (F := F)) V (Proc.devRef .tc main_arg10) = V (Proc.devRef .tc main_arg10) ∧
    after (ops (F := F)) V (Proc.devRef .tc main_arg11) = V (Proc.devRef .tc main_arg11) ∧
    after (ops (F := F)) V (Proc.devRef .tc main_arg12) = V (Proc.devRef .tc main_arg12) := by
  refine ⟨?_, ?_, ?_, ?_, ?_, ?_, ?_, ?_, ?_, ?_, ?_, ?_, ?_⟩ <;> (after_results_simp <;> rfl)

/-- On every device, for any float values, from any memory with zero counters: every weakly fair execution of the
    reference's @main terminates with the result at the last stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    have ha := fold_args (F := F) (launchContents m c)
    ⟨(h c main_v125).trans (fold_result (launchContents m c)),
      (h c main_arg0).trans ha.1, (h c main_arg1).trans ha.2.1, (h c main_arg2).trans ha.2.2.1, (h c main_arg3).trans ha.2.2.2.1,
      (h c main_arg4).trans ha.2.2.2.2.1, (h c main_arg5).trans ha.2.2.2.2.2.1, (h c main_arg6).trans ha.2.2.2.2.2.2.1,
      (h c main_arg7).trans ha.2.2.2.2.2.2.2.1, (h c main_arg8).trans ha.2.2.2.2.2.2.2.2.1, (h c main_arg9).trans ha.2.2.2.2.2.2.2.2.2.1,
      (h c main_arg10).trans ha.2.2.2.2.2.2.2.2.2.2.1, (h c main_arg11).trans ha.2.2.2.2.2.2.2.2.2.2.2.1,
      (h c main_arg12).trans ha.2.2.2.2.2.2.2.2.2.2.2.2⟩)
    (run_fold m ρ)

end Cert.ReferenceIdeal.Stages

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Spec.lean ====
/-
  The fused multi-scale feature map, row by row.

  A node's output row depends only on that node's rows of the three hop inputs: each hop row goes through the hop's
  linear map, gets the hop's bias and the hop's gate; the three results side by side give three attention logits; a
  softmax over the three (from the row's maximum, with minus infinity as the maximum's start) weights the three hop
  results; the weighted results side by side go through the fusion's linear map and get its bias. The definitions
  below say this over plain index types, and `G` lays it over the arrays' shapes.
-/
import Idealize.ShloMosaic.PureOps.Ideal
import Idealize.ShloMosaic.Lib.ValueIdx

noncomputable section

namespace Cert.Fusion

open Idealize.ShloMosaic Idealize.ShloMosaic.ValueIdx

/-- Minus infinity, as the pattern both programs start the row maximum from. -/
abbrev negInf : EReal := Ideal.ofBits .f32 0xFF800000#32

/-- One hop: the row through the hop's linear map, plus the hop's bias, times the hop's gate. -/
def hop (x : Fin 128 → EReal) (W : Fin 128 → Fin 128 → EReal) (b : Fin 128 → EReal) (s : EReal) (j : Fin 128) : EReal :=
  ((∑ k : Fin 128, x k * W k j) + b j) * s

/-- Three rows of 128 entries side by side. -/
def cat3 (t0 t1 t2 : Fin 128 → EReal) (q : Fin 384) : EReal :=
  if h0 : q.val < 128 then t0 ⟨q.val, h0⟩
  else if h1 : q.val < 256 then t1 ⟨q.val - 128, by omega⟩
  else t2 ⟨q.val - 256, by omega⟩

/-- The three attention logits of a row of 384 entries. -/
def logit (cc : Fin 384 → EReal) (Wa : Fin 384 → Fin 3 → EReal) (ba : Fin 3 → EReal) (a : Fin 3) : EReal :=
  (∑ q : Fin 384, cc q * Wa q a) + ba a

/-- The largest of three logits, from minus infinity. -/
def rowMax (l : Fin 3 → EReal) : EReal := max negInf ((Finset.univ : Finset (Fin 3)).fold max negInf l)

/-- The exponential of a logit's distance to the largest. -/
def expo (l : Fin 3 → EReal) (a : Fin 3) : EReal := Ideal.exp (l a - rowMax l)

/-- The softmax weight of a logit. -/
def att (l : Fin 3 → EReal) (a : Fin 3) : EReal := Ideal.div (expo l a) (∑ a' : Fin 3, expo l a')

/-- A node's output row from its three hop input rows and the weights. -/
def rowOut (x0 x1 x2 : Fin 128 → EReal) (Wh : Fin 3 → Fin 128 → Fin 128 → EReal) (bh : Fin 3 → Fin 128 → EReal)
    (sw : Fin 3 → EReal) (Wa : Fin 384 → Fin 3 → EReal) (ba : Fin 3 → EReal) (Wf : Fin 384 → Fin 128 → EReal)
    (bf : Fin 128 → EReal) (j : Fin 128) : EReal :=
  (∑ q : Fin 384,
      cat3 (fun j' => hop x0 (Wh 0) (bh 0) (sw 0) j' * att (logit (cat3 (hop x0 (Wh 0) (bh 0) (sw 0)) (hop x1 (Wh 1) (bh 1) (sw 1)) (hop x2 (Wh 2) (bh 2) (sw 2))) Wa ba) 0)
           (fun j' => hop x1 (Wh 1) (bh 1) (sw 1) j' * att (logit (cat3 (hop x0 (Wh 0) (bh 0) (sw 0)) (hop x1 (Wh 1) (bh 1) (sw 1)) (hop x2 (Wh 2) (bh 2) (sw 2))) Wa ba) 1)
           (fun j' => hop x2 (Wh 2) (bh 2) (sw 2) j' * att (logit (cat3 (hop x0 (Wh 0) (bh 0) (sw 0)) (hop x1 (Wh 1) (bh 1) (sw 1)) (hop x2 (Wh 2) (bh 2) (sw 2))) Wa ba) 2) q
        * Wf q j)
    + bf j

/-- The whole output array from the three hop input arrays and the weight arrays: row `i 0`, column `i 1`. -/
def G (c0 c1 c2 : FVec Ideal ⟨2, ![50000, 128]⟩ .f32) (Wh : FVec Ideal ⟨3, ![3, 128, 128]⟩ .f32) (bh : FVec Ideal ⟨2, ![3, 128]⟩ .f32)
    (sw : FVec Ideal ⟨2, ![1, 3]⟩ .f32) (Wa : FVec Ideal ⟨2, ![384, 3]⟩ .f32) (ba : FVec Ideal ⟨1, ![3]⟩ .f32)
    (Wf : FVec Ideal ⟨2, ![384, 128]⟩ .f32) (bf : FVec Ideal ⟨1, ![128]⟩ .f32) : FVec Ideal ⟨2, ![50000, 128]⟩ .f32 :=
  fun i => rowOut (fun k => c0 (ix2 (i 0) k)) (fun k => c1 (ix2 (i 0) k)) (fun k => c2 (ix2 (i 0) k))
    (fun h k j => Wh (ix3 h k j)) (fun h j => bh (ix2 h j)) (fun h => sw (ix2 0 h)) (fun q a => Wa (ix2 q a))
    (fun a => ba (ix1 a)) (fun q j => Wf (ix2 q j)) (fun j => bf (ix1 j)) (i 1)

end Cert.Fusion

end
-- ==== Proof.RefValue.lean ====
/-
  The reference's last stage read at one entry.

  The reference computes over all 50000 rows at once what the kernel computes block by block: a hop's rows times the
  hop's matrix, plus a bias row, times a gate; the three side by side times the attention matrix, plus a bias; a
  softmax along each row's three logits; the weighted hop features side by side times the fusion matrix, plus a
  bias. Every operation acts row by row, so entry (r, j) of the result is the row function of the specification
  at row r of the three hop inputs.
-/
import proofs.«161347_j88278757802661_1_alg».proof.Proof.RefRead
import proofs.«161347_j88278757802661_1_alg».proof.Proof.LibDense
import proofs.«161347_j88278757802661_1_alg».proof.Proof.Spec
import Idealize.ShloMosaic.Lib.Pipeline.Value
import Idealize.ShloMosaic.Lib.ValueIdx
import Idealize.ShloMosaic.PureOps.Ideal.Laws

noncomputable section

namespace Cert.Fusion.RValue

open Cert.ReferenceIdeal Cert.ReferenceIdeal.Gen Cert.ReferenceIdeal.ReadP Idealize.ShloMosaic Idealize.ShloMosaic.ValueIdx Cert.Fusion

/-! ## The stages as functions of what they read -/

section Stages
variable {F : FTy → Type} [FloatOps F]

/-- One hop's gated features over all rows. -/
def rHop (h : Fin 3) (sw : S3x128x128.Slices ![h.val, 0, 0] S1x128x128) (sb : S3x128.Slices ![h.val, 0] S1x128) (sg : S1x3.Slices ![0, h.val] S1x1)
    (c : FVec F S50000x128 .f32) (x3 : FVec F S3x128x128 .f32) (x4 : FVec F S3x128 .f32) (g : FVec F S1x3 .f32) : FVec F S50000x128 .f32 :=
  mulf (addf (Host.dotGeneral dot_S50000x128_S128x128_S50000x128_1_0_0_1_n_n none c
        (shapeCast S128x128 (extractStridedSlice S1x128x128 ![h.val, 0, 0] x3 sw) shapeCasts_S1x128x128_S128x128))
      (broadcastInDim S50000x128 ![0, 1] bcast_S1x128_S50000x128_0_1 (broadcastInDim S1x128 ![1] bcast_S128_S1x128_1
        (shapeCast S128 (extractStridedSlice S1x128 ![h.val, 0] x4 sb) shapeCasts_S1x128_S128))))
    (broadcastInDim S50000x128 ![] bcast_S_S50000x128 (shapeCast S_ (extractStridedSlice S1x1 ![0, h.val] g sg) shapeCasts_S1x1_S_))

/-- The three attention logits of every row. -/
def rLogits (t0 t1 t2 : FVec F S50000x128 .f32) (x9 : FVec F S384x3 .f32) (x10 : FVec F S3 .f32) : FVec F S50000x3 .f32 :=
  addf (Host.dotGeneral dot_S50000x384_S384x3_S50000x3_1_0_0_1_n_n none
        (concatenate S50000x384 1 [⟨S50000x128, t0⟩, ⟨S50000x128, t1⟩, ⟨S50000x128, t2⟩] concatenates_S50000x128_S50000x128_S50000x128_S50000x384_d1) x9)
    (broadcastInDim S50000x3 ![0, 1] bcast_S1x3_S50000x3_0_1 (broadcastInDim S1x3 ![1] bcast_S3_S1x3_1 x10))

/-- Every row's largest logit, from minus infinity. -/
def rMax (l : FVec F S50000x3 .f32) : FVec F S50000 .f32 :=
  maximumf (broadcastInDim S50000 ![] bcast_S_S50000 (constant S_ .f32 0xFF800000#32))
    (Host.reduce FloatOps.maximumf l (constant S_ .f32 0xFF800000#32) reducesTo_S50000x3_S50000_d1 h_S_)

/-- The exponentials of the logits' distances to the row's largest. -/
def rExp (l : FVec F S50000x3 .f32) : FVec F S50000x3 .f32 :=
  Host.exp (subf l (broadcastInDim S50000x3 ![0, 1] bcast_S50000x1_S50000x3_0_1 (broadcastInDim S50000x1 ![0] bcast_S50000_S50000x1_0 (rMax l))))

/-- The softmax weights. -/
def rSoft (l : FVec F S50000x3 .f32) : FVec F S50000x3 .f32 :=
  Host.divf (rExp l) (broadcastInDim S50000x3 ![0, 1] bcast_S50000x1_S50000x3_0_1 (broadcastInDim S50000x1 ![0] bcast_S50000_S50000x1_0
    (Host.reduceAdd (rExp l) (constant S_ .f32 0x00000000#32) reducesTo_S50000x3_S50000_d1 h_S_)))

/-- The weighted hop features side by side through the fusion matrix, plus the fusion bias. -/
def rOut (t0 t1 t2 : FVec F S50000x128 .f32) (s : FVec F S50000x3 .f32) (x11 : FVec F S384x128 .f32) (x12 : FVec F S128 .f32) : FVec F S50000x128 .f32 :=
  addf (Host.dotGeneral dot_S50000x384_S384x128_S50000x128_1_0_0_1_n_n none
      (concatenate S50000x384 1
        [⟨S50000x128, mulf t0 (broadcastInDim S50000x128 ![0, 1] bcast_S50000x1_S50000x128_0_1 (extractStridedSlice S50000x1 ![0, 0] s slices_S50000x3_S50000x1_0_0))⟩,
         ⟨S50000x128, mulf t1 (broadcastInDim S50000x128 ![0, 1] bcast_S50000x1_S50000x128_0_1 (extractStridedSlice S50000x1 ![0, 1] s slices_S50000x3_S50000x1_0_1))⟩,
         ⟨S50000x128, mulf t2 (broadcastInDim S50000x128 ![0, 1] bcast_S50000x1_S50000x128_0_1 (extractStridedSlice S50000x1 ![0, 2] s slices_S50000x3_S50000x1_0_2))⟩]
        concatenates_S50000x128_S50000x128_S50000x128_S50000x384_d1) x11)
    (broadcastInDim S50000x128 ![0, 1] bcast_S1x128_S50000x128_0_1 (broadcastInDim S1x128 ![1] bcast_S128_S1x128_1 x12))

variable (x0 : (⟨S50000x128, .f32⟩ : BufTy).Contents (Elt F)) (x1 : (⟨S2x800000, .i32⟩ : BufTy).Contents (Elt F)) (x2 : (⟨S50000, .i32⟩ : BufTy).Contents (Elt F)) (x3 : (⟨S3x128x128, .f32⟩ : BufTy).Contents (Elt F)) (x4 : (⟨S3x128, .f32⟩ : BufTy).Contents (Elt F)) (x5 : (⟨S2x32, .f32⟩ : BufTy).Contents (Elt F)) (x6 : (⟨S32, .f32⟩ : BufTy).Contents (Elt F)) (x7 : (⟨S32x3, .f32⟩ : BufTy).Contents (Elt F)) (x8 : (⟨S3, .f32⟩ : BufTy).Contents (Elt F)) (x9 : (⟨S384x3, .f32⟩ : BufTy).Contents (Elt F)) (x10 : (⟨S3, .f32⟩ : BufTy).Contents (Elt F)) (x11 : (⟨S384x128, .f32⟩ : BufTy).Contents (Elt F)) (x12 : (⟨S128, .f32⟩ : BufTy).Contents (Elt F))

/-- The three hops' stages are that function of the hop's input array. -/
theorem hop0_eq : val_main_v35 (F := F) x0 x2 x3 x4 x5 x6 x7 x8
    = rHop 0 slices_S3x128x128_S1x128x128_0_0_0 slices_S3x128_S1x128_0_0 slices_S1x3_S1x1_0_0 x0 x3 x4 (val_main_v19 (F := F) x2 x5 x6 x7 x8) := rfl
theorem hop1_eq : val_main_v65 (F := F) x0 x1 x2 x3 x4 x5 x6 x7 x8
    = rHop 1 slices_S3x128x128_S1x128x128_1_0_0 slices_S3x128_S1x128_1_0 slices_S1x3_S1x1_0_1 (val_main_v53 (F := F) x0 x1) x3 x4 (val_main_v19 (F := F) x2 x5 x6 x7 x8) := rfl
theorem hop2_eq : val_main_v95 (F := F) x0 x1 x2 x3 x4 x5 x6 x7 x8
    = rHop 2 slices_S3x128x128_S1x128x128_2_0_0 slices_S3x128_S1x128_2_0 slices_S1x3_S1x1_0_2 (val_main_v83 (F := F) x0 x1) x3 x4 (val_main_v19 (F := F) x2 x5 x6 x7 x8) := rfl

/-- The last stage is the stages composed over the three hops' stages. -/
theorem result_eq : val_main_v125 (F := F) x0 x1 x2 x3 x4 x5 x6 x7 x8 x9 x10 x11 x12
    = rOut (val_main_v35 (F := F) x0 x2 x3 x4 x5 x6 x7 x8) (val_main_v65 (F := F) x0 x1 x2 x3 x4 x5 x6 x7 x8) (val_main_v95 (F := F) x0 x1 x2 x3 x4 x5 x6 x7 x8)
        (rSoft (rLogits (val_main_v35 (F := F) x0 x2 x3 x4 x5 x6 x7 x8) (val_main_v65 (F := F) x0 x1 x2 x3 x4 x5 x6 x7 x8) (val_main_v95 (F := F) x0 x1 x2 x3 x4 x5 x6 x7 x8) x9 x10))
        x11 x12 := rfl

end Stages

/-! ## The stages read at an entry -/

/-- Along a row's three logits. -/
theorem red3 : S50000x3.Reduces [1] S50000 := by decide

/-- The index a reduction along the three columns reads at column a' of row r. -/
theorem lift_row (r : Fin 50000) (a' : Fin 3) : (red3).lift (ix1 r) a' = ix2 r a' :=
  funext fun b => Fin.ext (match b with | ⟨0, _⟩ => rfl | ⟨1, _⟩ => rfl)

/-- A row of n spread down the 50000 rows, from a vector. -/
theorem biasR_apply (x12 : FVec Ideal S128 .f32) (r : Fin 50000) (j : Fin 128) :
    broadcastInDim S50000x128 ![0, 1] bcast_S1x128_S50000x128_0_1 (broadcastInDim S1x128 ![1] bcast_S128_S1x128_1 x12) (ix2 r j) = x12 (ix1 j) := by
  refine (broadcastInDim_apply _ _ _ (ix2 r j) (ix2 0 j) (fun a => match a with
    | ⟨0, _⟩ => by show 0 = (if (1 : Nat) = 1 then 0 else r.val); rw [if_pos rfl]
    | ⟨1, _⟩ => by show j.val = (if (128 : Nat) = 1 then 0 else j.val); rw [if_neg (by decide)])).trans ?_
  exact broadcastInDim_apply _ _ x12 (ix2 0 j) (ix1 j) (fun a => match a with
    | ⟨0, _⟩ => by show j.val = (if (128 : Nat) = 1 then 0 else j.val); rw [if_neg (by decide)])

/-- One hop's gated features at (r, j). -/
theorem rHop_apply (h : Fin 3) (sw : S3x128x128.Slices ![h.val, 0, 0] S1x128x128) (sb : S3x128.Slices ![h.val, 0] S1x128) (sg : S1x3.Slices ![0, h.val] S1x1)
    (c : FVec Ideal S50000x128 .f32) (x3 : FVec Ideal S3x128x128 .f32) (x4 : FVec Ideal S3x128 .f32) (g : FVec Ideal S1x3 .f32) (r : Fin 50000) (j : Fin 128) :
    rHop (F := Ideal) h sw sb sg c x3 x4 g (ix2 r j)
      = hop (fun k => c (ix2 r k)) (fun k j' => x3 (ix3 h k j')) (fun j' => x4 (ix2 h j')) (g (ix2 0 h)) j := by
  unfold rHop hop
  show (_ + _) * _ = (_ + _) * _
  congr 1
  · congr 1
    · refine (LibDense.dotGeneral_apply _ none _ rfl rfl rfl rfl rfl rfl _ _ r j).trans ?_
      refine Finset.sum_congr rfl fun k _ => congrArg (c (ix2 r k) * ·) ?_
      refine (shapeCast_apply _ _ (ix2 k j) (ix3 0 k j) (by
        rw [Shape.rowMajor_val_three, Shape.rowMajor_val_two]
        show (0 * 128 + k.val) * 128 + j.val = k.val * 128 + j.val
        omega)).trans ?_
      exact extractStridedSlice_apply _ x3 sw (ix3 0 k j) (ix3 h k j) (fun a => match a with
        | ⟨0, _⟩ => by show h.val = h.val + 0; rfl
        | ⟨1, _⟩ => by show k.val = 0 + k.val; omega
        | ⟨2, _⟩ => by show j.val = 0 + j.val; omega)
    · refine (broadcastInDim_apply _ _ _ (ix2 r j) (ix2 0 j) (fun a => match a with
        | ⟨0, _⟩ => by show 0 = (if (1 : Nat) = 1 then 0 else r.val); rw [if_pos rfl]
        | ⟨1, _⟩ => by show j.val = (if (128 : Nat) = 1 then 0 else j.val); rw [if_neg (by decide)])).trans ?_
      refine (broadcastInDim_apply _ _ _ (ix2 0 j) (ix1 j) (fun a => match a with
        | ⟨0, _⟩ => by show j.val = (if (128 : Nat) = 1 then 0 else j.val); rw [if_neg (by decide)])).trans ?_
      refine (shapeCast_apply _ _ (ix1 j) (ix2 0 j) (by
        rw [Shape.rowMajor_val_two, Shape.rowMajor_val_one]
        show 0 * 128 + j.val = j.val
        omega)).trans ?_
      exact extractStridedSlice_apply _ x4 sb (ix2 0 j) (ix2 h j) (fun a => match a with
        | ⟨0, _⟩ => by show h.val = h.val + 0; rfl
        | ⟨1, _⟩ => by show j.val = 0 + j.val; omega)
  · refine (broadcastInDim_apply _ _ _ (ix2 r j) ix0 (fun a => a.elim0)).trans ?_
    refine (shapeCast_apply _ _ ix0 (ix2 0 0) (by
      rw [Shape.rowMajor_val_two]
      have h1 : ((S_ : Shape).rowMajor ix0).val < 1 := by
        have h := ((S_ : Shape).rowMajor ix0).isLt
        have hn : (S_ : Shape).numel = 1 := by decide
        omega
      show 0 * 1 + 0 = ((S_ : Shape).rowMajor ix0).val
      omega)).trans ?_
    exact extractStridedSlice_apply _ g sg (ix2 0 0) (ix2 0 h) (fun a => match a with
      | ⟨0, _⟩ => by show 0 = 0 + 0; rfl
      | ⟨1, _⟩ => by show h.val = h.val + 0; rfl)

/-- Three arrays side by side, at row r and column q of the 384. -/
theorem rCat_apply (a b c : FVec Ideal S50000x128 .f32) (r : Fin 50000) (q : Fin 384) :
    concatenate S50000x384 1 [⟨S50000x128, a⟩, ⟨S50000x128, b⟩, ⟨S50000x128, c⟩] concatenates_S50000x128_S50000x128_S50000x128_S50000x384_d1 (ix2 r q)
      = cat3 (fun j => a (ix2 r j)) (fun j => b (ix2 r j)) (fun j => c (ix2 r j)) q := by
  unfold cat3
  by_cases h0 : q.val < 128
  · rw [dif_pos h0]
    exact concatenate_apply_piece 1 _ _ (ix2 r q) 0 (by show (0 : Nat) < 3; omega) S50000x128 a rfl rfl 0 rfl (ix2 r ⟨q.val, h0⟩)
      (fun b' hb => match b' with | ⟨0, _⟩ => rfl | ⟨1, _⟩ => absurd rfl hb) (by show 0 + q.val = q.val; omega)
  · rw [dif_neg h0]
    by_cases h1 : q.val < 256
    · rw [dif_pos h1]
      exact concatenate_apply_piece 1 _ _ (ix2 r q) 1 (by show (1 : Nat) < 3; omega) S50000x128 b rfl rfl 128 rfl (ix2 r ⟨q.val - 128, by omega⟩)
        (fun b' hb => match b' with | ⟨0, _⟩ => rfl | ⟨1, _⟩ => absurd rfl hb) (by show 128 + (q.val - 128) = q.val; omega)
    · rw [dif_neg h1]
      exact concatenate_apply_piece 1 _ _ (ix2 r q) 2 (by show (2 : Nat) < 3; omega) S50000x128 c rfl rfl 256 rfl (ix2 r ⟨q.val - 256, by have := q.isLt; omega⟩)
        (fun b' hb => match b' with | ⟨0, _⟩ => rfl | ⟨1, _⟩ => absurd rfl hb) (by show 256 + (q.val - 256) = q.val; omega)

/-- The attention logits at (r, a). -/
theorem rLogits_apply (t0 t1 t2 : FVec Ideal S50000x128 .f32) (x9 : FVec Ideal S384x3 .f32) (x10 : FVec Ideal S3 .f32) (r : Fin 50000) (a : Fin 3) :
    rLogits (F := Ideal) t0 t1 t2 x9 x10 (ix2 r a)
      = logit (cat3 (fun j => t0 (ix2 r j)) (fun j => t1 (ix2 r j)) (fun j => t2 (ix2 r j))) (fun q a' => x9 (ix2 q a')) (fun a' => x10 (ix1 a')) a := by
  unfold rLogits logit
  show _ + _ = _ + _
  congr 1
  · refine (LibDense.dotGeneral_apply _ none _ rfl rfl rfl rfl rfl rfl _ _ r a).trans ?_
    exact Finset.sum_congr rfl fun q _ => congrArg (· * x9 (ix2 q a)) (rCat_apply t0 t1 t2 r q)
  · refine (broadcastInDim_apply _ _ _ (ix2 r a) (ix2 0 a) (fun b => match b with
      | ⟨0, _⟩ => by show 0 = (if (1 : Nat) = 1 then 0 else r.val); rw [if_pos rfl]
      | ⟨1, _⟩ => by show a.val = (if (3 : Nat) = 1 then 0 else a.val); rw [if_neg (by decide)])).trans ?_
    exact broadcastInDim_apply _ _ x10 (ix2 0 a) (ix1 a) (fun b => match b with
      | ⟨0, _⟩ => by show a.val = (if (3 : Nat) = 1 then 0 else a.val); rw [if_neg (by decide)])

/-- A per-row value spread over the row's three columns. -/
theorem col3R_apply (v : FVec Ideal S50000 .f32) (r : Fin 50000) (a : Fin 3) :
    broadcastInDim S50000x3 ![0, 1] bcast_S50000x1_S50000x3_0_1 (broadcastInDim S50000x1 ![0] bcast_S50000_S50000x1_0 v) (ix2 r a) = v (ix1 r) := by
  refine (broadcastInDim_apply _ _ _ (ix2 r a) (ix2 r 0) (fun b => match b with
    | ⟨0, _⟩ => by show r.val = (if (50000 : Nat) = 1 then 0 else r.val); rw [if_neg (by decide)]
    | ⟨1, _⟩ => by show 0 = (if (1 : Nat) = 1 then 0 else a.val); rw [if_pos rfl])).trans ?_
  exact broadcastInDim_apply _ _ v (ix2 r 0) (ix1 r) (fun b => match b with
    | ⟨0, _⟩ => by show r.val = (if (50000 : Nat) = 1 then 0 else r.val); rw [if_neg (by decide)])

/-- Every row's largest logit. -/
theorem rMax_apply (l : FVec Ideal S50000x3 .f32) (r : Fin 50000) : rMax (F := Ideal) l (ix1 r) = rowMax (fun a' => l (ix2 r a')) := by
  unfold rMax rowMax
  refine (maximumf_apply _ _ (ix1 r)).trans (congrArg₂ max ?_ ?_)
  · exact broadcastInDim_apply _ _ _ (ix1 r) ix0 (fun a => a.elim0)
  · refine (Host.reduce_eq_fold_single FloatOps.maximumf l _ reducesTo_S50000x3_S50000_d1 red3 h_S_ (ix1 r)).trans ?_
    exact congrArg (Finset.fold max negInf · Finset.univ) (funext fun a' => congrArg l (lift_row r a'))

/-- The host's quotient and exponential act entry by entry. -/
theorem hdivf_apply {s : Shape} (a b : FVec Ideal s .f32) (i : s.Idx) : Host.divf a b i = Ideal.div (a i) (b i) := rfl
theorem hexp_apply {s : Shape} (a : FVec Ideal s .f32) (i : s.Idx) : Host.exp a i = Ideal.exp (a i) := rfl

/-- The exponential of a logit's distance to its row's largest. -/
theorem rExp_apply (l : FVec Ideal S50000x3 .f32) (r : Fin 50000) (a : Fin 3) : rExp (F := Ideal) l (ix2 r a) = expo (fun a' => l (ix2 r a')) a := by
  unfold rExp expo
  show Ideal.exp (l (ix2 r a) - _) = _
  rw [col3R_apply, rMax_apply]

/-- The row sums of the exponentials. -/
theorem rSum_apply (e : FVec Ideal S50000x3 .f32) (r : Fin 50000) :
    Host.reduceAdd (F := Ideal) e (constant S_ .f32 0x00000000#32) reducesTo_S50000x3_S50000_d1 h_S_ (ix1 r) = ∑ a' : Fin 3, e (ix2 r a') := by
  simp only [Host.reduceAdd, Ideal.hostReduceAdd_def]
  rw [Ideal.hostReduceAdd_single reducesTo_S50000x3_S50000_d1 red3]
  show Ideal.ofBits .f32 0x00000000#32 + _ = _
  rw [Ideal.ofBits_zero_f32, zero_add]
  exact Finset.sum_congr rfl fun a' _ => congrArg e (lift_row r a')

/-- The softmax weight at (r, a). -/
theorem rSoft_apply (l : FVec Ideal S50000x3 .f32) (r : Fin 50000) (a : Fin 3) : rSoft (F := Ideal) l (ix2 r a) = att (fun a' => l (ix2 r a')) a := by
  unfold rSoft att
  refine (hdivf_apply _ _ (ix2 r a)).trans ?_
  refine congrArg₂ Ideal.div (rExp_apply l r a) ?_
  refine (col3R_apply _ r a).trans ?_
  refine (rSum_apply _ r).trans ?_
  exact Finset.sum_congr rfl fun a' _ => rExp_apply l r a'

/-- A hop's features times that hop's softmax weight, at (r, j). -/
theorem rWeigh_apply (t : FVec Ideal S50000x128 .f32) (s : FVec Ideal S50000x3 .f32) (h : Fin 3) (hs : S50000x3.Slices ![0, h.val] S50000x1)
    (r : Fin 50000) (j : Fin 128) :
    mulf t (broadcastInDim S50000x128 ![0, 1] bcast_S50000x1_S50000x128_0_1 (extractStridedSlice S50000x1 ![0, h.val] s hs)) (ix2 r j) = t (ix2 r j) * s (ix2 r h) := by
  show t (ix2 r j) * _ = _
  congr 1
  refine (broadcastInDim_apply _ _ _ (ix2 r j) (ix2 r 0) (fun b => match b with
    | ⟨0, _⟩ => by show r.val = (if (50000 : Nat) = 1 then 0 else r.val); rw [if_neg (by decide)]
    | ⟨1, _⟩ => by show 0 = (if (1 : Nat) = 1 then 0 else j.val); rw [if_pos rfl])).trans ?_
  exact extractStridedSlice_apply _ s hs (ix2 r 0) (ix2 r h) (fun b => match b with
    | ⟨0, _⟩ => by show r.val = 0 + r.val; omega
    | ⟨1, _⟩ => by show h.val = h.val + 0; rfl)

/-- The result at (r, j) from the hop features and the softmax weights. -/
theorem rOut_apply (t0 t1 t2 : FVec Ideal S50000x128 .f32) (s : FVec Ideal S50000x3 .f32) (x11 : FVec Ideal S384x128 .f32) (x12 : FVec Ideal S128 .f32)
    (r : Fin 50000) (j : Fin 128) :
    rOut (F := Ideal) t0 t1 t2 s x11 x12 (ix2 r j)
      = (∑ q : Fin 384, cat3 (fun j' => t0 (ix2 r j') * s (ix2 r 0)) (fun j' => t1 (ix2 r j') * s (ix2 r 1)) (fun j' => t2 (ix2 r j') * s (ix2 r 2)) q
          * x11 (ix2 q j)) + x12 (ix1 j) := by
  unfold rOut
  show _ + _ = _ + _
  congr 1
  · refine (LibDense.dotGeneral_apply _ none _ rfl rfl rfl rfl rfl rfl _ _ r j).trans ?_
    refine Finset.sum_congr rfl fun q _ => congrArg (· * x11 (ix2 q j)) ?_
    refine (rCat_apply _ _ _ r q).trans ?_
    congr 1
    · exact funext fun j' => rWeigh_apply t0 s 0 _ r j'
    · exact funext fun j' => rWeigh_apply t1 s 1 _ r j'
    · exact funext fun j' => rWeigh_apply t2 s 2 _ r j'
  · exact biasR_apply x12 r j

/-! ## The result as the whole-array function -/

/-- THE REFERENCE'S RESULT is the whole-array function of the node features, the two neighbour means, the gates and the
    weights. -/
theorem result_G (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S3x128x128, .f32⟩ : BufTy).Contents (Elt Ideal)) (x4 : (⟨S3x128, .f32⟩ : BufTy).Contents (Elt Ideal)) (x5 : (⟨S2x32, .f32⟩ : BufTy).Contents (Elt Ideal)) (x6 : (⟨S32, .f32⟩ : BufTy).Contents (Elt Ideal)) (x7 : (⟨S32x3, .f32⟩ : BufTy).Contents (Elt Ideal)) (x8 : (⟨S3, .f32⟩ : BufTy).Contents (Elt Ideal)) (x9 : (⟨S384x3, .f32⟩ : BufTy).Contents (Elt Ideal)) (x10 : (⟨S3, .f32⟩ : BufTy).Contents (Elt Ideal)) (x11 : (⟨S384x128, .f32⟩ : BufTy).Contents (Elt Ideal)) (x12 : (⟨S128, .f32⟩ : BufTy).Contents (Elt Ideal)) :
    val_main_v125 (F := Ideal) x0 x1 x2 x3 x4 x5 x6 x7 x8 x9 x10 x11 x12
      = G x0 (val_main_v53 (F := Ideal) x0 x1) (val_main_v83 (F := Ideal) x0 x1) x3 x4 (val_main_v19 (F := Ideal) x2 x5 x6 x7 x8) x9 x10 x11 x12 := by
  funext i
  obtain ⟨r, j, rfl⟩ : ∃ (r : Fin 50000) (j : Fin 128), i = ix2 r j := ⟨i 0, i 1, eq_ix2 i⟩
  rw [result_eq, rOut_apply]
  simp only [rSoft_apply, rLogits_apply, hop0_eq, hop1_eq, hop2_eq, rHop_apply]
  rfl

end Cert.Fusion.RValue

end
-- ==== Proof.KBody.lean ====
/-
  The kernel body's arithmetic read at one entry of a row block.

  Every operation of the body acts row by row: a hop's block of rows times the hop's weight matrix, a bias row
  spread down the rows, a gate scalar spread over the block; the three results side by side times the attention
  matrix; a maximum, an exponential and a sum along each row's three logits; the weighted results side by side
  times the fusion matrix. So the value at row p, column j is the row function of the specification at row p
  of each input block.
-/
import proofs.«161347_j88278757802661_1_alg».proof.Proof.Gen.KernelIdeal.Skeleton
import proofs.«161347_j88278757802661_1_alg».proof.Proof.LibDense
import proofs.«161347_j88278757802661_1_alg».proof.Proof.Spec
import Idealize.ShloMosaic.Lib.Pipeline.Value
import Idealize.ShloMosaic.Lib.ValueIdx
import Idealize.ShloMosaic.PureOps.Ideal.Laws

noncomputable section

namespace Cert.Fusion.KBody

open Cert.KernelIdeal Cert.KernelIdeal.Gen Idealize.ShloMosaic Idealize.ShloMosaic.ValueIdx Cert.Fusion

/-! ## The layout operations of the body at an index -/

/-- A [1,128,128] slab viewed as a [128,128] matrix. -/
theorem slab_apply (v : Vec Ideal S1x128x128 .f32) (k j : Fin 128) :
    shapeCast S128x128 v shapeCasts_S1x128x128_S128x128 (ix2 k j) = v (ix3 0 k j) :=
  shapeCast_apply v _ (ix2 k j) (ix3 0 k j) (by
    rw [Shape.rowMajor_val_three, Shape.rowMajor_val_two]
    show (0 * 128 + k.val) * 128 + j.val = k.val * 128 + j.val
    omega)

/-- A [1,128] row viewed as a vector, viewed as a row again and spread down 2000 rows. -/
theorem biasrow_apply (v : Vec Ideal S1x128 .f32) (p : Fin 2000) (j : Fin 128) :
    broadcastTo S2000x128 (shapeCast S1x128 (shapeCast S128 v shapeCasts_S1x128_S128) shapeCasts_S128_S1x128) broadcasts_S1x128_S2000x128 (ix2 p j)
      = v (ix2 0 j) := by
  rw [shapeCast_shapeCast]
  exact broadcastTo_apply v _ (ix2 p j) (ix2 0 j) (fun a => match a with
    | ⟨0, _⟩ => by show 0 = (if (1 : Nat) = 1 then 0 else p.val); rw [if_pos rfl]
    | ⟨1, _⟩ => by show j.val = (if (128 : Nat) = 1 then 0 else j.val); rw [if_neg (by decide)])

/-- The gate of hop h out of the [1,3] gate row. -/
theorem gate_apply (v : Vec Ideal S1x3 .f32) (h : Fin 3) (hs : S1x3.Slices ![0, h.val] S1x1) (hp : ∀ a, (![0, 0] : Fin S1x1.rank → Nat) a < S1x1.size a) :
    extractAt ![0, 0] (extractStridedSlice S1x1 ![0, h.val] v hs) hp = v (ix2 0 h) := by
  unfold extractAt
  exact extractStridedSlice_apply _ v hs _ (ix2 0 h) (fun a => match a with
    | ⟨0, _⟩ => by show 0 = 0 + 0; rfl
    | ⟨1, _⟩ => by show h.val = h.val + 0; rfl)

/-! ## One hop -/

/-- The block's rows times the hop's matrix, into a zero accumulator: entry (p, j) is row p against column j. -/
theorem rows_times_apply (v : Vec Ideal S2000x128 .f32) (w : Vec Ideal S1x128x128 .f32) (p : Fin 2000) (j : Fin 128) :
    FloatOps.matmul (F := Ideal) dot_S2000x128_S128x128_S2000x128_1_0_0_1_n_n none (truncf .bf16 v bitsLt_bf16_f32)
        (truncf .bf16 (shapeCast S128x128 w shapeCasts_S1x128x128_S128x128) bitsLt_bf16_f32) (constant S2000x128 .f32 0x00000000#32) (ix2 p j)
      = ∑ k : Fin 128, v (ix2 p k) * w (ix3 0 k j) := by
  refine (LibDense.matmul_zero_apply _ none rfl rfl rfl rfl rfl rfl _ _ p j).trans ?_
  exact Finset.sum_congr rfl fun k _ => congrArg (v (ix2 p k) * ·) (slab_apply w k j)

/-- The first hop's gated features at (p, j). -/
theorem pay3_apply (v0 : Vec Ideal S2000x128 .f32) (v5 : Vec Ideal S1x3 .f32) (v8 : Vec Ideal S1x128x128 .f32) (v12 : Vec Ideal S1x128 .f32)
    (p : Fin 2000) (j : Fin 128) :
    k0_pay3 (F := Ideal) v0 v5 v8 v12 (ix2 p j)
      = hop (fun k => v0 (ix2 p k)) (fun k j' => v8 (ix3 0 k j')) (fun j' => v12 (ix2 0 j')) (v5 (ix2 0 0)) j := by
  unfold k0_pay3 k0_pay2 hop
  show (_ + _) * _ = (_ + _) * _
  congr 1
  · congr 1
    · exact rows_times_apply v0 v8 p j
    · exact biasrow_apply v12 p j
  · exact (gate_apply _ 0 _ _).trans (congrFun (shapeCast_self v5 _) _)

/-- The second hop's gated features at (p, j): its block goes through a same-shape view first. -/
theorem pay4_apply (v1 : Vec Ideal S2000x128 .f32) (v5 : Vec Ideal S1x3 .f32) (v22 : Vec Ideal S1x128x128 .f32) (v26 : Vec Ideal S1x128 .f32)
    (p : Fin 2000) (j : Fin 128) :
    k0_pay4 (F := Ideal) v1 v5 v22 v26 (ix2 p j)
      = hop (fun k => v1 (ix2 p k)) (fun k j' => v22 (ix3 0 k j')) (fun j' => v26 (ix2 0 j')) (v5 (ix2 0 1)) j := by
  unfold k0_pay4 k0_pay2 hop
  show (_ + _) * _ = (_ + _) * _
  congr 1
  · congr 1
    · refine (rows_times_apply _ v22 p j).trans ?_
      rw [shapeCast_self]
    · exact biasrow_apply v26 p j
  · exact (gate_apply _ 1 _ _).trans (congrFun (shapeCast_self v5 _) _)

/-! ## The rest of the body, stage by stage -/

/-- The third hop's gated features, from the block already narrowed to the matrix unit's input format. -/
def kHop2 (v6 : FVec Ideal S1x3 .f32) (x35 : FVec Ideal S2000x128 .bf16) (v36 : Vec Ideal S1x128x128 .f32) (v40 : Vec Ideal S1x128 .f32) :
    FVec Ideal S2000x128 .f32 :=
  mulf (addf (matmul dot_S2000x128_S128x128_S2000x128_1_0_0_1_n_n none x35
        (truncf .bf16 (shapeCast S128x128 v36 shapeCasts_S1x128x128_S128x128) bitsLt_bf16_f32) (constant S2000x128 .f32 0x00000000#32))
      (broadcastTo S2000x128 (shapeCast S1x128 (shapeCast S128 v40 shapeCasts_S1x128_S128) shapeCasts_S128_S1x128) broadcasts_S1x128_S2000x128))
    (broadcast S2000x128 (extractAt ![0, 0] (extractStridedSlice S1x1 ![0, 2] v6 slices_S1x3_o0_2_S1x1) inpos_S1x1_p0_0))

/-- The three attention logits of every row. -/
def kLogits (t0 t1 t2 : FVec Ideal S2000x128 .f32) (v50 : Vec Ideal S384x3 .f32) (v54 : Vec Ideal S3 .f32) : FVec Ideal S2000x3 .f32 :=
  addf (matmul dot_S2000x384_S384x3_S2000x3_1_0_0_1_n_n none
        (truncf .bf16 (concatenate S2000x384 1 [⟨S2000x128, t0⟩, ⟨S2000x128, t1⟩, ⟨S2000x128, t2⟩] concatenates_S2000x128_S2000x128_S2000x128_S2000x384_d1) bitsLt_bf16_f32)
        (truncf .bf16 v50 bitsLt_bf16_f32) (constant S2000x3 .f32 0x00000000#32))
    (broadcastTo S2000x3 (shapeCast S1x3 v54 shapeCasts_S3_S1x3) broadcasts_S1x3_S2000x3)

/-- Every row's largest logit, from minus infinity. -/
def kMax (l : FVec Ideal S2000x3 .f32) : FVec Ideal S2000 .f32 :=
  maximumf (broadcast S2000 (Scalar.ofBits .f32 0xFF800000#32))
    (multiReduction .maximumf [1] S2000 l 0xFF800000#32 reduces_S2000x3_S2000 (.inl rfl) rfl)

/-- The exponentials of the logits' distances to the row's largest. -/
def kExp (l : FVec Ideal S2000x3 .f32) : FVec Ideal S2000x3 .f32 :=
  exp (subf l (broadcastTo S2000x3 (shapeCast S2000x1 (kMax l) shapeCasts_S2000_S2000x1) broadcasts_S2000x1_S2000x3))

/-- The softmax weights. -/
def kSoft (l : FVec Ideal S2000x3 .f32) : FVec Ideal S2000x3 .f32 :=
  divf (kExp l) (broadcastTo S2000x3 (shapeCast S2000x1
    (multiReduction .add [1] S2000 (kExp l) 0x00000000#32 reduces_S2000x3_S2000 (.inl rfl) rfl) shapeCasts_S2000_S2000x1) broadcasts_S2000x1_S2000x3)

/-- The weighted features side by side through the fusion matrix. -/
def kFuse (t0 t1 t2 : FVec Ideal S2000x128 .f32) (s : FVec Ideal S2000x3 .f32) (v79 : Vec Ideal S384x128 .f32) : FVec Ideal S2000x128 .f32 :=
  matmul dot_S2000x384_S384x128_S2000x128_1_0_0_1_n_n none
    (truncf .bf16 (concatenate S2000x384 1
      [⟨S2000x128, mulf t0 (broadcastTo S2000x128 (extractStridedSlice S2000x1 ![0, 0] s slices_S2000x3_o0_0_S2000x1) broadcasts_S2000x1_S2000x128)⟩,
       ⟨S2000x128, mulf t1 (broadcastTo S2000x128 (extractStridedSlice S2000x1 ![0, 1] s slices_S2000x3_o0_1_S2000x1) broadcasts_S2000x1_S2000x128)⟩,
       ⟨S2000x128, mulf t2 (broadcastTo S2000x128 (extractStridedSlice S2000x1 ![0, 2] s slices_S2000x3_o0_2_S2000x1) broadcasts_S2000x1_S2000x128)⟩]
      concatenates_S2000x128_S2000x128_S2000x128_S2000x384_d1) bitsLt_bf16_f32)
    (truncf .bf16 v79 bitsLt_bf16_f32) (constant S2000x128 .f32 0x00000000#32)

/-- The body's long payload is those stages composed. -/
theorem pay6_eq (v6 : FVec Ideal S1x3 .f32) (v20 v34 : FVec Ideal S2000x128 .f32) (x35 : FVec Ideal S2000x128 .bf16)
    (v36 : Vec Ideal S1x128x128 .f32) (v40 : Vec Ideal S1x128 .f32) (v50 : Vec Ideal S384x3 .f32) (v54 : Vec Ideal S3 .f32) (v79 : Vec Ideal S384x128 .f32) :
    k0_pay6 (F := Ideal) v6 v20 v34 x35 v36 v40 v50 v54 v79
      = kFuse v20 v34 (kHop2 v6 x35 v36 v40) (kSoft (kLogits v20 v34 (kHop2 v6 x35 v36 v40) v50 v54)) v79 := rfl

/-- The third hop's gated features at (p, j). -/
theorem kHop2_apply (v6 : FVec Ideal S1x3 .f32) (x35 : FVec Ideal S2000x128 .bf16) (v36 : Vec Ideal S1x128x128 .f32) (v40 : Vec Ideal S1x128 .f32)
    (p : Fin 2000) (j : Fin 128) :
    kHop2 v6 x35 v36 v40 (ix2 p j)
      = hop (fun k => x35 (ix2 p k)) (fun k j' => v36 (ix3 0 k j')) (fun j' => v40 (ix2 0 j')) (v6 (ix2 0 2)) j := by
  unfold kHop2 hop
  show (_ + _) * _ = (_ + _) * _
  congr 1
  · congr 1
    · exact rows_times_apply x35 v36 p j
    · exact biasrow_apply v40 p j
  · exact gate_apply v6 2 _ _

/-- Three blocks side by side, at row p and column q of the 384. -/
theorem cat_apply (a b c : FVec Ideal S2000x128 .f32) (p : Fin 2000) (q : Fin 384) :
    concatenate S2000x384 1 [⟨S2000x128, a⟩, ⟨S2000x128, b⟩, ⟨S2000x128, c⟩] concatenates_S2000x128_S2000x128_S2000x128_S2000x384_d1 (ix2 p q)
      = cat3 (fun j => a (ix2 p j)) (fun j => b (ix2 p j)) (fun j => c (ix2 p j)) q := by
  unfold cat3
  by_cases h0 : q.val < 128
  · rw [dif_pos h0]
    exact concatenate_apply_piece 1 _ _ (ix2 p q) 0 (by show (0 : Nat) < 3; omega) S2000x128 a rfl rfl 0 rfl (ix2 p ⟨q.val, h0⟩)
      (fun b' hb => match b' with | ⟨0, _⟩ => rfl | ⟨1, _⟩ => absurd rfl hb) (by show 0 + q.val = q.val; omega)
  · rw [dif_neg h0]
    by_cases h1 : q.val < 256
    · rw [dif_pos h1]
      exact concatenate_apply_piece 1 _ _ (ix2 p q) 1 (by show (1 : Nat) < 3; omega) S2000x128 b rfl rfl 128 rfl (ix2 p ⟨q.val - 128, by omega⟩)
        (fun b' hb => match b' with | ⟨0, _⟩ => rfl | ⟨1, _⟩ => absurd rfl hb) (by show 128 + (q.val - 128) = q.val; omega)
    · rw [dif_neg h1]
      exact concatenate_apply_piece 1 _ _ (ix2 p q) 2 (by show (2 : Nat) < 3; omega) S2000x128 c rfl rfl 256 rfl (ix2 p ⟨q.val - 256, by have := q.isLt; omega⟩)
        (fun b' hb => match b' with | ⟨0, _⟩ => rfl | ⟨1, _⟩ => absurd rfl hb) (by show 256 + (q.val - 256) = q.val; omega)

/-- A row of three spread down 2000 rows. -/
theorem row3_apply (v : Vec Ideal S3 .f32) (p : Fin 2000) (a : Fin 3) :
    broadcastTo S2000x3 (shapeCast S1x3 v shapeCasts_S3_S1x3) broadcasts_S1x3_S2000x3 (ix2 p a) = v (ix1 a) := by
  refine (broadcastTo_apply _ _ (ix2 p a) (ix2 0 a) (fun b => match b with
    | ⟨0, _⟩ => by show 0 = (if (1 : Nat) = 1 then 0 else p.val); rw [if_pos rfl]
    | ⟨1, _⟩ => by show a.val = (if (3 : Nat) = 1 then 0 else a.val); rw [if_neg (by decide)])).trans ?_
  exact shapeCast_apply v _ (ix2 0 a) (ix1 a) (by
    rw [Shape.rowMajor_val_one, Shape.rowMajor_val_two]
    show a.val = 0 * 3 + a.val
    omega)

/-- The attention logits at (p, a). -/
theorem kLogits_apply (t0 t1 t2 : FVec Ideal S2000x128 .f32) (v50 : Vec Ideal S384x3 .f32) (v54 : Vec Ideal S3 .f32) (p : Fin 2000) (a : Fin 3) :
    kLogits t0 t1 t2 v50 v54 (ix2 p a)
      = logit (cat3 (fun j => t0 (ix2 p j)) (fun j => t1 (ix2 p j)) (fun j => t2 (ix2 p j))) (fun q a' => v50 (ix2 q a')) (fun a' => v54 (ix1 a')) a := by
  unfold kLogits logit
  show _ + _ = _ + _
  congr 1
  · refine (LibDense.matmul_zero_apply _ none rfl rfl rfl rfl rfl rfl _ _ p a).trans ?_
    exact Finset.sum_congr rfl fun q _ => congrArg (· * v50 (ix2 q a)) (cat_apply t0 t1 t2 p q)
  · exact row3_apply v54 p a

/-- A per-row value spread over the row's three columns. -/
theorem col3_apply (v : FVec Ideal S2000 .f32) (p : Fin 2000) (a : Fin 3) :
    broadcastTo S2000x3 (shapeCast S2000x1 v shapeCasts_S2000_S2000x1) broadcasts_S2000x1_S2000x3 (ix2 p a) = v (ix1 p) := by
  refine (broadcastTo_apply _ _ (ix2 p a) (ix2 p 0) (fun b => match b with
    | ⟨0, _⟩ => by show p.val = (if (2000 : Nat) = 1 then 0 else p.val); rw [if_neg (by decide)]
    | ⟨1, _⟩ => by show 0 = (if (1 : Nat) = 1 then 0 else a.val); rw [if_pos rfl])).trans ?_
  exact shapeCast_apply v _ (ix2 p 0) (ix1 p) (by
    rw [Shape.rowMajor_val_one, Shape.rowMajor_val_two]
    show p.val = p.val * 1 + 0
    omega)

/-- The index a reduction along the three columns reads at column a' of row p. -/
theorem lift_row (p : Fin 2000) (a' : Fin 3) : (reduces_S2000x3_S2000 : Shape.Reduces S2000x3 [1] S2000).lift (ix1 p) a' = ix2 p a' :=
  funext fun b => Fin.ext (match b with | ⟨0, _⟩ => rfl | ⟨1, _⟩ => rfl)

/-- Every row's largest logit. -/
theorem kMax_apply (l : FVec Ideal S2000x3 .f32) (p : Fin 2000) : kMax l (ix1 p) = rowMax (fun a' => l (ix2 p a')) := by
  unfold kMax rowMax
  show max _ _ = max _ _
  congr 1
  refine (Ideal.multiReduction_maximumf_single l _ _ _ _ (ix1 p)).trans ?_
  exact congrArg (Finset.fold max _ · Finset.univ) (funext fun a' => congrArg l (lift_row p a'))

/-- The exponential of a logit's distance to its row's largest. -/
theorem kExp_apply (l : FVec Ideal S2000x3 .f32) (p : Fin 2000) (a : Fin 3) : kExp l (ix2 p a) = expo (fun a' => l (ix2 p a')) a := by
  unfold kExp expo
  show Ideal.exp (l (ix2 p a) - _) = _
  rw [col3_apply, kMax_apply]

/-- The softmax weight at (p, a). -/
theorem kSoft_apply (l : FVec Ideal S2000x3 .f32) (p : Fin 2000) (a : Fin 3) : kSoft l (ix2 p a) = att (fun a' => l (ix2 p a')) a := by
  unfold kSoft att
  show Ideal.div (kExp l (ix2 p a)) _ = _
  rw [col3_apply, kExp_apply]
  congr 1
  refine (Ideal.multiReduction_add_single (kExp l) _ _ _ _ (ix1 p)).trans ?_
  exact Finset.sum_congr rfl fun a' _ => (congrArg (kExp l) (lift_row p a')).trans (kExp_apply l p a')

/-- A hop's features times that hop's softmax weight, at (p, j). -/
theorem weigh_apply (t : FVec Ideal S2000x128 .f32) (s : FVec Ideal S2000x3 .f32) (h : Fin 3) (hs : S2000x3.Slices ![0, h.val] S2000x1)
    (p : Fin 2000) (j : Fin 128) :
    mulf t (broadcastTo S2000x128 (extractStridedSlice S2000x1 ![0, h.val] s hs) broadcasts_S2000x1_S2000x128) (ix2 p j) = t (ix2 p j) * s (ix2 p h) := by
  show t (ix2 p j) * _ = _
  congr 1
  refine (broadcastTo_apply _ _ (ix2 p j) (ix2 p 0) (fun b => match b with
    | ⟨0, _⟩ => by show p.val = (if (2000 : Nat) = 1 then 0 else p.val); rw [if_neg (by decide)]
    | ⟨1, _⟩ => by show 0 = (if (1 : Nat) = 1 then 0 else j.val); rw [if_pos rfl])).trans ?_
  exact extractStridedSlice_apply _ s hs (ix2 p 0) (ix2 p h) (fun b => match b with
    | ⟨0, _⟩ => by show p.val = 0 + p.val; omega
    | ⟨1, _⟩ => by show h.val = h.val + 0; rfl)

/-- The fused features at (p, j). -/
theorem kFuse_apply (t0 t1 t2 : FVec Ideal S2000x128 .f32) (s : FVec Ideal S2000x3 .f32) (v79 : Vec Ideal S384x128 .f32) (p : Fin 2000) (j : Fin 128) :
    kFuse t0 t1 t2 s v79 (ix2 p j)
      = ∑ q : Fin 384, cat3 (fun j' => t0 (ix2 p j') * s (ix2 p 0)) (fun j' => t1 (ix2 p j') * s (ix2 p 1)) (fun j' => t2 (ix2 p j') * s (ix2 p 2)) q
          * v79 (ix2 q j) := by
  unfold kFuse
  refine (LibDense.matmul_zero_apply _ none rfl rfl rfl rfl rfl rfl _ _ p j).trans ?_
  refine Finset.sum_congr rfl fun q _ => congrArg (· * v79 (ix2 q j)) ?_
  refine (cat_apply _ _ _ p q).trans ?_
  congr 1
  · exact funext fun j' => weigh_apply t0 s 0 _ p j'
  · exact funext fun j' => weigh_apply t1 s 1 _ p j'
  · exact funext fun j' => weigh_apply t2 s 2 _ p j'

/-- A vector of 128 viewed as a row and spread down 2000 rows. -/
theorem biasvec_apply (v : Vec Ideal S128 .f32) (p : Fin 2000) (j : Fin 128) :
    broadcastTo S2000x128 (shapeCast S1x128 v shapeCasts_S128_S1x128) broadcasts_S1x128_S2000x128 (ix2 p j) = v (ix1 j) := by
  refine (broadcastTo_apply _ _ (ix2 p j) (ix2 0 j) (fun b => match b with
    | ⟨0, _⟩ => by show 0 = (if (1 : Nat) = 1 then 0 else p.val); rw [if_pos rfl]
    | ⟨1, _⟩ => by show j.val = (if (128 : Nat) = 1 then 0 else j.val); rw [if_neg (by decide)])).trans ?_
  exact shapeCast_apply v _ (ix2 0 j) (ix1 j) (by
    rw [Shape.rowMajor_val_one, Shape.rowMajor_val_two]
    show j.val = 0 * 128 + j.val
    omega)

/-- The third hop's block, narrowed for the matrix unit, is the block. -/
theorem pay5_apply (v3 : Vec Ideal S2000x128 .f32) (i : S2000x128.Idx) : k0_pay5 (F := Ideal) v3 i = v3 i := by
  unfold k0_pay5
  show shapeCast S2000x128 v3 shapeCasts_S2000x128_S2000x128 i = v3 i
  rw [shapeCast_self]

/-- The gate row through its same-shape view is the gate row. -/
theorem pay2_eq (v5 : Vec Ideal S1x3 .f32) : k0_pay2 (F := Ideal) v5 = v5 := shapeCast_self v5 _

/-- THE BODY'S STORED VALUE at (p, j): the row function at row p of the three hop blocks, with the weights as the
    loaded slabs and rows hold them. -/
theorem pay_apply (Wh : Fin 3 → Fin 128 → Fin 128 → EReal) (bh : Fin 3 → Fin 128 → EReal)
    (v0 v1 v3 : Vec Ideal S2000x128 .f32) (v5 : Vec Ideal S1x3 .f32) (w0 w1 w2 : Vec Ideal S1x128x128 .f32) (b0 b1 b2 : Vec Ideal S1x128 .f32)
    (v50 : Vec Ideal S384x3 .f32) (v54 : Vec Ideal S3 .f32) (v79 : Vec Ideal S384x128 .f32) (v83 : Vec Ideal S128 .f32)
    (hw0 : ∀ k j', w0 (ix3 0 k j') = Wh 0 k j') (hw1 : ∀ k j', w1 (ix3 0 k j') = Wh 1 k j') (hw2 : ∀ k j', w2 (ix3 0 k j') = Wh 2 k j')
    (hb0 : ∀ j', b0 (ix2 0 j') = bh 0 j') (hb1 : ∀ j', b1 (ix2 0 j') = bh 1 j') (hb2 : ∀ j', b2 (ix2 0 j') = bh 2 j')
    (p : Fin 2000) (j : Fin 128) :
    k0_pay1 (F := Ideal) (k0_pay6 (k0_pay2 v5) (k0_pay3 v0 v5 w0 b0) (k0_pay4 v1 v5 w1 b1) (k0_pay5 v3) w2 b2 v50 v54 v79) v83 (ix2 p j)
      = rowOut (fun k => v0 (ix2 p k)) (fun k => v1 (ix2 p k)) (fun k => v3 (ix2 p k)) Wh bh (fun h => v5 (ix2 0 h))
          (fun q a => v50 (ix2 q a)) (fun a => v54 (ix1 a)) (fun q j' => v79 (ix2 q j')) (fun j' => v83 (ix1 j')) j := by
  have e0 : (fun k j' => w0 (ix3 0 k j')) = Wh 0 := funext fun k => funext fun j' => hw0 k j'
  have e1 : (fun k j' => w1 (ix3 0 k j')) = Wh 1 := funext fun k => funext fun j' => hw1 k j'
  have e2 : (fun k j' => w2 (ix3 0 k j')) = Wh 2 := funext fun k => funext fun j' => hw2 k j'
  have f0 : (fun j' => b0 (ix2 0 j')) = bh 0 := funext hb0
  have f1 : (fun j' => b1 (ix2 0 j')) = bh 1 := funext hb1
  have f2 : (fun j' => b2 (ix2 0 j')) = bh 2 := funext hb2
  unfold k0_pay1 rowOut
  show _ + _ = _ + _
  congr 1
  · rw [pay6_eq, kFuse_apply, pay2_eq]
    simp only [kSoft_apply, kLogits_apply, pay3_apply, pay4_apply, kHop2_apply, pay5_apply, e0, e1, e2, f0, f1, f2]
  · exact biasvec_apply v83 p j

end Cert.Fusion.KBody

end
-- ==== Proof.KBlock.lean ====
/-
  From the blocks to the array: what the pipelined call leaves in its result array.

  Grid point t stages rows 2000·t … 2000·t + 1999 of the three hop input arrays and the whole of every weight
  array, and writes back rows 2000·t … of the result. A block's entry (p, j) is the row function at row p of the
  blocks (the body's arithmetic), hence the row function at row 2000·t + p of the arrays: point t writes block t
  of the whole-array function G. The 25 blocks cover the 50000 rows, so the result array ends holding G.
-/
import proofs.«161347_j88278757802661_1_alg».proof.Proof.Gen.KernelIdeal.Value
import proofs.«161347_j88278757802661_1_alg».proof.Proof.KBody

noncomputable section

namespace Cert.Fusion.KBlock

open Cert.KernelIdeal Cert.KernelIdeal.Gen Idealize.ShloMosaic Idealize.ShloMosaic.TcCoe Idealize.SL.Sem
open Idealize.ShloMosaic.ValueIdx Cert.Fusion
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The body's result block from the staged blocks -/

/-- A hop's weight slab as loaded is that hop's slice of the stacked weights. -/
theorem slab_ld (x3 : Vec Ideal S3x128x128 .f32) (h : Fin 3) (inb : ∀ a, (![h.val, 0, 0] : Fin 3 → Nat) a + S1x128x128.size a ≤ S3x128x128.size a)
    (k j' : Fin 128) :
    View.ld x3 (Rect.unit (s := S3x128x128) ![h.val, 0, 0] S1x128x128.size inb) (ix3 0 k j') = x3 (ix3 h k j') := by
  show x3 _ = x3 _
  congr 1
  funext a; apply Fin.ext
  match a with
  | ⟨0, _⟩ => show h.val + 1 * 0 = h.val; omega
  | ⟨1, _⟩ => show 0 + 1 * k.val = k.val; omega
  | ⟨2, _⟩ => show 0 + 1 * j'.val = j'.val; omega

/-- A hop's bias row as loaded is that hop's row of the stacked biases. -/
theorem biasrow_ld (x4 : Vec Ideal S3x128 .f32) (h : Fin 3) (inb : ∀ a, (![h.val, 0] : Fin 2 → Nat) a + S1x128.size a ≤ S3x128.size a)
    (j' : Fin 128) :
    View.ld x4 (Rect.unit (s := S3x128) ![h.val, 0] S1x128.size inb) (ix2 0 j') = x4 (ix2 h j') := by
  show x4 _ = x4 _
  congr 1
  funext a; apply Fin.ext
  match a with
  | ⟨0, _⟩ => show h.val + 1 * 0 = h.val; omega
  | ⟨1, _⟩ => show 0 + 1 * j'.val = j'.val; omega

/-- The block the body leaves, at (p, j): the row function at row p of the staged hop blocks, over the staged weights. -/
theorem body_apply (x0 x1 x2 : Vec Ideal S2000x128 .f32) (x3 : Vec Ideal S3x128x128 .f32) (x4 : Vec Ideal S3x128 .f32) (x5 : Vec Ideal S1x3 .f32)
    (x6 : Vec Ideal S384x3 .f32) (x7 : Vec Ideal S3 .f32) (x8 : Vec Ideal S384x128 .f32) (x9 : Vec Ideal S128 .f32) (p : Fin 2000) (j : Fin 128) :
    out0_10 x0 x1 x2 x3 x4 x5 x6 x7 x8 x9 (ix2 p j)
      = rowOut (fun k => x0 (ix2 p k)) (fun k => x1 (ix2 p k)) (fun k => x2 (ix2 p k)) (fun h k j' => x3 (ix3 h k j')) (fun h j' => x4 (ix2 h j'))
          (fun h => x5 (ix2 0 h)) (fun q a => x6 (ix2 q a)) (fun a => x7 (ix1 a)) (fun q j' => x8 (ix2 q j')) (fun j' => x9 (ix1 j')) j := by
  unfold out0_10
  rw [View.canon_unit_zero hz2]
  simp only [View.ld_unit_zero (S := S2000x128) hz2, View.ld_unit_zero (S := S1x3) hz2, View.ld_unit_zero (S := S384x3) hz2,
    View.ld_unit_zero (S := S3) hz1, View.ld_unit_zero (S := S384x128) hz2, View.ld_unit_zero (S := S128) hz1]
  exact KBody.pay_apply (fun h k j' => x3 (ix3 h k j')) (fun h j' => x4 (ix2 h j')) x0 x1 x2 x5 _ _ _ _ _ _ x6 x7 x8 x9
    (fun k j' => slab_ld x3 0 _ k j') (fun k j' => slab_ld x3 1 _ k j') (fun k j' => slab_ld x3 2 _ k j')
    (fun j' => biasrow_ld x4 0 _ j') (fun j' => biasrow_ld x4 1 _ j') (fun j' => biasrow_ld x4 2 _ j') p j

/-! ## The index maps over the grid -/

/-- The printed index maps, decided over the 25 points: the three hop windows and the result window take row block t,
    every weight window its whole array. -/
theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = win0_10.index t (0 : Fin 2) ∧ win0_2.index t (1 : Fin 2) = 0
    ∧ win0_10.index t (0 : Fin 2) = t.val ∧ win0_10.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- The array row under row p of point t's block. -/
def rowOf (t : Fin cfg0.N) (p : Fin 2000) : Fin 50000 :=
  ⟨t.val * 2000 + p.val, by have := t.isLt; have hN : cfg0.N = 25 := N_0; have := p.isLt; omega⟩

/-! ## The staged blocks as the arrays read them

Each read is stated once over an arbitrary array and then used at the array the region finds. -/

theorem hopread0 (A : FVec Ideal S50000x128 .f32) (t : Fin cfg0.N) (p : Fin 2000) (k : Fin 128) :
    (((cfg0.win 0).blk t).view.read (Elt Ideal) A : Vec Ideal S2000x128 .f32) (ix2 p k) = A (ix2 (rowOf t p) k) := by
  obtain ⟨e00, e01, e10, e11, e20, e21, eo0, eo1, -⟩ := idx_facts t
  rw [View.read_apply]
  refine congrArg A ?_
  funext a; apply Fin.ext
  match a with
  | ⟨0, _⟩ => show win0_0.index t (0 : Fin 2) * 2000 + 1 * p.val = t.val * 2000 + p.val; rw [e00, eo0]; omega
  | ⟨1, _⟩ => show win0_0.index t (1 : Fin 2) * 128 + 1 * k.val = k.val; rw [e01]; omega

theorem hopblk0 (c : Dev nD) (t : Fin cfg0.N) (p : Fin 2000) (k : Fin 128) :
    (iblk m c 0 t : Vec Ideal S2000x128 .f32) (ix2 p k) = (V m c (Pipeline.arrRef spec0 0) : FVec Ideal S50000x128 .f32) (ix2 (rowOf t p) k) := by
  unfold iblk
  exact hopread0 _ t p k

theorem hopread1 (A : FVec Ideal S50000x128 .f32) (t : Fin cfg0.N) (p : Fin 2000) (k : Fin 128) :
    (((cfg0.win 1).blk t).view.read (Elt Ideal) A : Vec Ideal S2000x128 .f32) (ix2 p k) = A (ix2 (rowOf t p) k) := by
  obtain ⟨e00, e01, e10, e11, e20, e21, eo0, eo1, -⟩ := idx_facts t
  rw [View.read_apply]
  refine congrArg A ?_
  funext a; apply Fin.ext
  match a with
  | ⟨0, _⟩ => show win0_1.index t (0 : Fin 2) * 2000 + 1 * p.val = t.val * 2000 + p.val; rw [e10, eo0]; omega
  | ⟨1, _⟩ => show win0_1.index t (1 : Fin 2) * 128 + 1 * k.val = k.val; rw [e11]; omega

theorem hopblk1 (c : Dev nD) (t : Fin cfg0.N) (p : Fin 2000) (k : Fin 128) :
    (iblk m c 1 t : Vec Ideal S2000x128 .f32) (ix2 p k) = (V m c (Pipeline.arrRef spec0 1) : FVec Ideal S50000x128 .f32) (ix2 (rowOf t p) k) := by
  unfold iblk
  exact hopread1 _ t p k

theorem hopread2 (A : FVec Ideal S50000x128 .f32) (t : Fin cfg0.N) (p : Fin 2000) (k : Fin 128) :
    (((cfg0.win 2).blk t).view.read (Elt Ideal) A : Vec Ideal S2000x128 .f32) (ix2 p k) = A (ix2 (rowOf t p) k) := by
  obtain ⟨e00, e01, e10, e11, e20, e21, eo0, eo1, -⟩ := idx_facts t
  rw [View.read_apply]
  refine congrArg A ?_
  funext a; apply Fin.ext
  match a with
  | ⟨0, _⟩ => show win0_2.index t (0 : Fin 2) * 2000 + 1 * p.val = t.val * 2000 + p.val; rw [e20, eo0]; omega
  | ⟨1, _⟩ => show win0_2.index t (1 : Fin 2) * 128 + 1 * k.val = k.val; rw [e21]; omega

theorem hopblk2 (c : Dev nD) (t : Fin cfg0.N) (p : Fin 2000) (k : Fin 128) :
    (iblk m c 2 t : Vec Ideal S2000x128 .f32) (ix2 p k) = (V m c (Pipeline.arrRef spec0 2) : FVec Ideal S50000x128 .f32) (ix2 (rowOf t p) k) := by
  unfold iblk
  exact hopread2 _ t p k

theorem wread3 (A : FVec Ideal S3x128x128 .f32) (t : Fin cfg0.N) :
    (((cfg0.win 3).blk t).view.read (Elt Ideal) A : Vec Ideal S3x128x128 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_3.index t (0 : Fin 3) * 3 + 1 * (y 0).val = (y 0).val; rw [e30]; omega
  | ⟨1, _⟩ => show win0_3.index t (1 : Fin 3) * 128 + 1 * (y 1).val = (y 1).val; rw [e31]; omega
  | ⟨2, _⟩ => show win0_3.index t (2 : Fin 3) * 128 + 1 * (y 2).val = (y 2).val; rw [e32]; omega

theorem wblk3 (c : Dev nD) (t : Fin cfg0.N) : (iblk m c 3 t : Vec Ideal S3x128x128 .f32) = V m c (Pipeline.arrRef spec0 3) := by
  unfold iblk
  exact wread3 _ t

theorem wread4 (A : FVec Ideal S3x128 .f32) (t : Fin cfg0.N) :
    (((cfg0.win 4).blk t).view.read (Elt Ideal) A : Vec Ideal S3x128 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_4.index t (0 : Fin 2) * 3 + 1 * (y 0).val = (y 0).val; rw [e40]; omega
  | ⟨1, _⟩ => show win0_4.index t (1 : Fin 2) * 128 + 1 * (y 1).val = (y 1).val; rw [e41]; omega

theorem wblk4 (c : Dev nD) (t : Fin cfg0.N) : (iblk m c 4 t : Vec Ideal S3x128 .f32) = V m c (Pipeline.arrRef spec0 4) := by
  unfold iblk
  exact wread4 _ t

theorem wread5 (A : FVec Ideal S1x3 .f32) (t : Fin cfg0.N) :
    (((cfg0.win 5).blk t).view.read (Elt Ideal) A : Vec Ideal S1x3 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_5.index t (0 : Fin 2) * 1 + 1 * (y 0).val = (y 0).val; rw [e50]; omega
  | ⟨1, _⟩ => show win0_5.index t (1 : Fin 2) * 3 + 1 * (y 1).val = (y 1).val; rw [e51]; omega

theorem wblk5 (c : Dev nD) (t : Fin cfg0.N) : (iblk m c 5 t : Vec Ideal S1x3 .f32) = V m c (Pipeline.arrRef spec0 5) := by
  unfold iblk
  exact wread5 _ t

theorem wread6 (A : FVec Ideal S384x3 .f32) (t : Fin cfg0.N) :
    (((cfg0.win 6).blk t).view.read (Elt Ideal) A : Vec Ideal S384x3 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_6.index t (0 : Fin 2) * 384 + 1 * (y 0).val = (y 0).val; rw [e60]; omega
  | ⟨1, _⟩ => show win0_6.index t (1 : Fin 2) * 3 + 1 * (y 1).val = (y 1).val; rw [e61]; omega

theorem wblk6 (c : Dev nD) (t : Fin cfg0.N) : (iblk m c 6 t : Vec Ideal S384x3 .f32) = V m c (Pipeline.arrRef spec0 6) := by
  unfold iblk
  exact wread6 _ t

theorem wread7 (A : FVec Ideal S3 .f32) (t : Fin cfg0.N) :
    (((cfg0.win 7).blk t).view.read (Elt Ideal) A : Vec Ideal S3 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_7.index t (0 : Fin 1) * 3 + 1 * (y 0).val = (y 0).val; rw [e70]; omega

theorem wblk7 (c : Dev nD) (t : Fin cfg0.N) : (iblk m c 7 t : Vec Ideal S3 .f32) = V m c (Pipeline.arrRef spec0 7) := by
  unfold iblk
  exact wread7 _ t

theorem wread8 (A : FVec Ideal S384x128 .f32) (t : Fin cfg0.N) :
    (((cfg0.win 8).blk t).view.read (Elt Ideal) A : Vec Ideal S384x128 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_8.index t (0 : Fin 2) * 384 + 1 * (y 0).val = (y 0).val; rw [e80]; omega
  | ⟨1, _⟩ => show win0_8.index t (1 : Fin 2) * 128 + 1 * (y 1).val = (y 1).val; rw [e81]; omega

theorem wblk8 (c : Dev nD) (t : Fin cfg0.N) : (iblk m c 8 t : Vec Ideal S384x128 .f32) = V m c (Pipeline.arrRef spec0 8) := by
  unfold iblk
  exact wread8 _ t

theorem wread9 (A : FVec Ideal S128 .f32) (t : Fin cfg0.N) :
    (((cfg0.win 9).blk t).view.read (Elt Ideal) A : Vec Ideal S128 .f32) = A := by
  obtain ⟨-, -, -, -, -, -, -, -, e30, e31, e32, e40, e41, e50, e51, e60, e61, e70, e80, e81, e90⟩ := idx_facts t
  funext y
  rw [View.read_apply]
  refine congrArg A ?_
  funext a; apply Fin.ext
  match a with
  | ⟨0, _⟩ => show win0_9.index t (0 : Fin 1) * 128 + 1 * (y 0).val = (y 0).val; rw [e90]; omega

theorem wblk9 (c : Dev nD) (t : Fin cfg0.N) : (iblk m c 9 t : Vec Ideal S128 .f32) = V m c (Pipeline.arrRef spec0 9) := by
  unfold iblk
  exact wread9 _ t

/-! ## What each point writes back, the cover, and the array after the run -/

/-- The whole-array function at an entry is the row function at that row and column. -/
theorem G_apply (c0 c1 c2 : FVec Ideal S50000x128 .f32) (Wh : FVec Ideal S3x128x128 .f32) (bh : FVec Ideal S3x128 .f32)
    (sw : FVec Ideal S1x3 .f32) (Wa : FVec Ideal S384x3 .f32) (ba : FVec Ideal S3 .f32) (Wf : FVec Ideal S384x128 .f32) (bf : FVec Ideal S128 .f32)
    (r : Fin 50000) (j : Fin 128) :
    G c0 c1 c2 Wh bh sw Wa ba Wf bf (ix2 r j)
      = rowOut (fun k => c0 (ix2 r k)) (fun k => c1 (ix2 r k)) (fun k => c2 (ix2 r k)) (fun h k j' => Wh (ix3 h k j')) (fun h j' => bh (ix2 h j'))
          (fun h => sw (ix2 0 h)) (fun q a => Wa (ix2 q a)) (fun a => ba (ix1 a)) (fun q j' => Wf (ix2 q j')) (fun j' => bf (ix1 j')) j := rfl

/-- The whole-array function at the arrays as the region finds them, window by window. -/
def Gk (c : Dev nD) : FVec Ideal S50000x128 .f32 :=
  G (V m c (Pipeline.arrRef spec0 0)) (V m c (Pipeline.arrRef spec0 1)) (V m c (Pipeline.arrRef spec0 2)) (V m c (Pipeline.arrRef spec0 3))
    (V m c (Pipeline.arrRef spec0 4)) (V m c (Pipeline.arrRef spec0 5)) (V m c (Pipeline.arrRef spec0 6)) (V m c (Pipeline.arrRef spec0 7))
    (V m c (Pipeline.arrRef spec0 8)) (V m c (Pipeline.arrRef spec0 9))

/-- Point t writes back block t of the whole-array function. -/
theorem flushed_eq (c : Dev nD) (t : Fin cfg0.N) :
    (dats m 0 c).flushed 10 t = ((cfg0.win 10).blk t).view.read (Elt Ideal) (Gk m c) := by
  rw [Cert.KernelIdeal.Value.flushed10]
  funext y
  obtain ⟨p, j, rfl⟩ : ∃ (p : Fin 2000) (j : Fin 128), y = ix2 p j := ⟨y 0, y 1, eq_ix2 y⟩
  obtain ⟨-, -, -, -, -, -, eo0, eo1, -⟩ := idx_facts t
  have hemb : ((cfg0.win 10).blk t).view.emb (ix2 p j) = ix2 (rowOf t p) j := by
    funext a; apply Fin.ext
    match a with
    | ⟨0, _⟩ => show win0_10.index t (0 : Fin 2) * 2000 + 1 * p.val = t.val * 2000 + p.val; rw [eo0]; omega
    | ⟨1, _⟩ => show win0_10.index t (1 : Fin 2) * 128 + 1 * j.val = j.val; rw [eo1]; omega
  show out0_10 (iblk m c 0 t) (iblk m c 1 t) (iblk m c 2 t) (iblk m c 3 t) (iblk m c 4 t) (iblk m c 5 t) (iblk m c 6 t) (iblk m c 7 t)
      (iblk m c 8 t) (iblk m c 9 t) (ix2 p j) = Gk m c (((cfg0.win 10).blk t).view.emb (ix2 p j))
  rw [hemb]
  refine (body_apply _ _ _ _ _ _ _ _ _ _ p j).trans ?_
  have h0 := funext (hopblk0 m c t p)
  have h1 := funext (hopblk1 m c t p)
  have h2 := funext (hopblk2 m c t p)
  rw [h0, h1, h2, wblk3 m c t, wblk4 m c t, wblk5 m c t, wblk6 m c t, wblk7 m c t, wblk8 m c t, wblk9 m c t]
  unfold Gk
  exact (G_apply _ _ _ _ _ _ _ _ _ _ _ _).symm

/-- An index of the array is in point t's block iff each coordinate is in the block's range on its axis. -/
theorem mem_blk (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v60).slice (win0_10.rect t)).set ↔ _
  rw [View.set_slice_whole, Rect.mem_set_unit]
  exact Iff.rfl

/-- Every row of the array is in the block of the point numbered by the row's quotient by 2000. -/
theorem cover (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  have hN : cfg0.N = 25 := N_0
  have hq : (i 0).val / 2000 < cfg0.N := by rw [hN]; omega
  obtain ⟨-, -, -, -, -, -, eo0, eo1, -⟩ := idx_facts ⟨(i 0).val / 2000, hq⟩
  refine ⟨⟨(i 0).val / 2000, hq⟩, flush0_10 _, ?_⟩
  rw [mem_blk]
  intro a
  match a with
  | ⟨0, _⟩ =>
    show win0_10.index ⟨(i 0).val / 2000, hq⟩ (0 : Fin 2) * 2000 ≤ (i 0).val ∧ (i 0).val < win0_10.index ⟨(i 0).val / 2000, hq⟩ (0 : Fin 2) * 2000 + 2000
    rw [eo0]
    show (i 0).val / 2000 * 2000 ≤ (i 0).val ∧ (i 0).val < (i 0).val / 2000 * 2000 + 2000
    omega
  | ⟨1, _⟩ =>
    show win0_10.index ⟨(i 0).val / 2000, hq⟩ (1 : Fin 2) * 128 ≤ (i 1).val ∧ (i 1).val < win0_10.index ⟨(i 0).val / 2000, hq⟩ (1 : Fin 2) * 128 + 128
    rw [eo1]
    omega

/-- The result array after the run is the whole-array function of the arrays the region found. -/
theorem final (c : Dev nD) : (dats m 0 c).arrAt 10 cfg0.N = Gk m c :=
  (dats m 0 c).arrAt_eq_of_cover 10 (Gk m c) (fun t _ => flushed_eq m c t) cover

end Cert.Fusion.KBlock

end
-- ==== Proof.KHost.lean ====
/-
  The arrays the pipelined call finds, as functions of the arguments.

  Before the call the kernel's program runs the same host operations as the reference: the gate from the largest node
  depth through the small two-layer network, and twice the mean over incoming edges (a gather along the edge
  sources, a scatter-add along the edge targets, a division by the clamped in-degree). So the three computed arrays
  the call stages are the reference's own stages of the same arguments.
-/
import proofs.«161347_j88278757802661_1_alg».proof.Proof.Gen.KernelIdeal.Frame
import proofs.«161347_j88278757802661_1_alg».proof.Proof.RefRead

noncomputable section

namespace Cert.Fusion.KHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 16384 in
set_option maxHeartbeats 40000000 in
/-- The first neighbour mean. -/
theorem V_mean1 (c : Dev nD) :
    V m c main_v41 = Cert.ReferenceIdeal.ReadP.val_main_v53 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  rfl

set_option maxRecDepth 16384 in
set_option maxHeartbeats 40000000 in
/-- The second neighbour mean. -/
theorem V_mean2 (c : Dev nD) :
    V m c main_v59 = Cert.ReferenceIdeal.ReadP.val_main_v83 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  rfl

set_option maxRecDepth 16384 in
set_option maxHeartbeats 40000000 in
/-- The three hop gates. -/
theorem V_gate (c : Dev nD) :
    V m c main_v19 = Cert.ReferenceIdeal.ReadP.val_main_v19 (F := F) (m ((c : Thread nD τ).loc main_arg2)) (m ((c : Thread nD τ).loc main_arg5)) (m ((c : Thread nD τ).loc main_arg6)) (m ((c : Thread nD τ).loc main_arg7)) (m ((c : Thread nD τ).loc main_arg8)) := by
  dsimp only [V]
  simp only [hostOps0, hostOps0_1, hostOps0_2, List.flatten_cons, List.flatten_nil, List.append_nil, List.cons_append, List.nil_append]
  after_results
  simp only [TRef.ofBuf, TRef.toBuf, cast_eq]
  rfl

end Cert.Fusion.KHost

end
-- ==== Proof.KRun.lean ====
/-
  The kernel's run, read: its result array as one function of the arguments.

  The pipelined call leaves the whole-array function of the arrays it finds; the three computed ones among them are the
  reference's own stages of the arguments (the two neighbour means and the gates), the others the arguments themselves.
-/
import proofs.«161347_j88278757802661_1_alg».proof.Proof.KBlock
import proofs.«161347_j88278757802661_1_alg».proof.Proof.KHost

noncomputable section

namespace Cert.Fusion.KRun

open Cert.KernelIdeal Cert.KernelIdeal.Gen Idealize.ShloMosaic Idealize.ShloMosaic.TcCoe Idealize.SL.Sem Cert.Fusion

variable (m : (ℓ : Loc nD τ sig) → Buf (Elt Ideal) ℓ) (ρ : Dev nD → PrngReg)

/-- The result array as a function of the arguments. -/
def Gfun (c : Dev nD) : Buf (Elt Ideal) ((c : Thread nD τ).loc main_v60) :=
  G (m ((c : Thread nD τ).loc main_arg0)) (Cert.ReferenceIdeal.ReadP.val_main_v53 (F := Ideal) (m ((c : Thread nD τ).loc main_arg0)) (m ((c : Thread nD τ).loc main_arg1)))
    (Cert.ReferenceIdeal.ReadP.val_main_v83 (F := Ideal) (m ((c : Thread nD τ).loc main_arg0)) (m ((c : Thread nD τ).loc main_arg1))) (m ((c : Thread nD τ).loc main_arg3)) (m ((c : Thread nD τ).loc main_arg4))
    (Cert.ReferenceIdeal.ReadP.val_main_v19 (F := Ideal) (m ((c : Thread nD τ).loc main_arg2)) (m ((c : Thread nD τ).loc main_arg5)) (m ((c : Thread nD τ).loc main_arg6)) (m ((c : Thread nD τ).loc main_arg7)) (m ((c : Thread nD τ).loc main_arg8)))
    (m ((c : Thread nD τ).loc main_arg9)) (m ((c : Thread nD τ).loc main_arg10)) (m ((c : Thread nD τ).loc main_arg11)) (m ((c : Thread nD τ).loc main_arg12))

/-- The arrays the call finds are those functions of the arguments. -/
theorem Gk_eq (c : Dev nD) : KBlock.Gk m c = Gfun m c := by
  unfold KBlock.Gk Gfun
  show G (V m c main_arg0) (V m c main_v41) (V m c main_v59) (V m c main_arg3) (V m c main_arg4) (V m c main_v19)
      (V m c main_arg9) (V m c main_arg10) (V m c main_arg11) (V m c main_arg12) = _
  rw [V_main_arg0 m c, KHost.V_mean1 m c, KHost.V_mean2 m c, V_main_arg3 m c, V_main_arg4 m c, KHost.V_gate m c,
    V_main_arg9 m c, V_main_arg10 m c, V_main_arg11 m c, V_main_arg12 m c]

/-- The kernel's run: the result array at that function of the arguments, the arguments unchanged. -/
theorem run : θ_run defs (onTc (τ := τ) (main (F := Ideal))) ⟨m, fun _ => 0, ρ⟩ fun r => ∀ c : Dev nD,
      r.2.mem ((c : Thread nD τ).loc main_v60) = Gfun m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((KBlock.final m c).trans (Gk_eq m c)), (h c).2⟩)
    (Cert.KernelIdeal.Value.run_blocks m ρ)

end Cert.Fusion.KRun

end
-- ==== Proof.lean ====
/-
  The certificate of the multi-scale feature fusion kernel against its reference.

  Both programs compute, for every node, the same row function of that node's rows of three hop inputs: the node
  features, their mean over incoming edges, and the mean of those means. Each hop row goes through the hop's linear
  map, gets the hop's bias and the hop's gate (a sigmoid of a small network of the largest node depth); three attention
  logits of the hop results side by side pass through a softmax along the row; the softmax-weighted hop results side
  by side go through the fusion's linear map and get its bias. The kernel's program computes the gates and the two
  neighbour means with the reference's own host operations and then runs the dense part as one pipelined call over 25
  blocks of 2000 rows; the reference runs the dense part over all 50000 rows at once. At the extended reals the
  narrowing of the matrix products' operands is the identity, so the two results are one array, entry by entry:
  no algebraic law beyond reading each operation at an entry is needed, and the precondition is not used.

  The three frames: the kernel's two are the generated frame certificates; the reference's is its run with the result
  dropped. The idealization ledger is empty.
-/
import proofs.«161347_j88278757802661_1_alg».proof.Defs
import proofs.«161347_j88278757802661_1_alg».proof.Proof.Gen.Kernel
import proofs.«161347_j88278757802661_1_alg».proof.Proof.Gen.Kernel.Frame
import proofs.«161347_j88278757802661_1_alg».proof.Proof.Gen.KernelIdeal
import proofs.«161347_j88278757802661_1_alg».proof.Proof.Gen.KernelIdeal.Frame
import proofs.«161347_j88278757802661_1_alg».proof.Proof.Gen.KernelIdeal.Value
import proofs.«161347_j88278757802661_1_alg».proof.Proof.Gen.ReferenceIdeal
import proofs.«161347_j88278757802661_1_alg».proof.Proof.Gen.Pre_finite_inputs
import proofs.«161347_j88278757802661_1_alg».proof.Proof.RefStages
import proofs.«161347_j88278757802661_1_alg».proof.Proof.RefValue
import proofs.«161347_j88278757802661_1_alg».proof.Proof.KRun
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- At the extended reals the kernel's result array and the reference's are the same whole-array function of
    arguments that agree. -/
theorem algebraic : Cert.algebraic_KernelIdeal_ReferenceIdeal := by
  intro m ρ m' ρ' _ hagree
  refine ⟨fun c => Cert.Fusion.KRun.Gfun m c, Cert.Fusion.KRun.run m ρ, ?_⟩
  refine (θ_run Cert.ReferenceIdeal.defs _ _).mono (fun _ h c => ⟨(h c).1.trans ?_, (h c).2⟩)
    (Cert.ReferenceIdeal.Stages.run (F := Ideal) m' ρ')
  obtain ⟨h0, h1, h2, h3, h4, h5, h6, h7, h8, h9, h10, h11, h12⟩ := hagree c
  rw [Cert.Fusion.RValue.result_G, h0, h1, h2, h3, h4, h5, h6, h7, h8, h9, h10, h11, h12]
  rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
